-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S200000x2 : Shape := ⟨2, ![200000, 2]⟩
abbrev S128x256 : Shape := ⟨2, ![128, 256]⟩
abbrev S256 : Shape := ⟨1, ![256]⟩
abbrev S256x128 : Shape := ⟨2, ![256, 128]⟩
abbrev S128 : Shape := ⟨1, ![128]⟩
abbrev S256x1 : Shape := ⟨2, ![256, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S256x1 .f32) (main_arg10 : FVec F S1 .f32) (main_v33 : IVec S_ 1) : IVec S_ 1 :=
  let main_v34 : FVec F S256x1 .f32 := Host.absf main_arg9
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S256x128 .f32) (main_arg7 : FVec F S128 .f32) (main_arg8 : FVec F S256x128 .f32) (main_arg9 : FVec F S256x1 .f32) (main_arg10 : FVec F S1 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x600000 32) (main_arg2 : IVec S200000x2 32) (main_arg3 : FVec F S128x256 .f32) (main_arg4 : FVec F S256 .f32) (main_arg5 : FVec F S128x256 .f32) (main_arg6 : FVec F S256x128 .f32) (main_arg7 : FVec F S128 .f32) (main_arg8 : FVec F S256x128 .f32) (main_arg9 : FVec F S256x1 .f32) (main_arg10 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg5
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x600000 : Shape := ⟨2, ![2, 600000]⟩
abbrev S200000x2 : Shape := ⟨2, ![200000, 2]⟩
abbrev S128x256 : Shape := ⟨2, ![128, 256]⟩
abbrev S256 : Shape := ⟨1, ![256]⟩
abbrev S256x128 : Shape := ⟨2, ![256, 128]⟩
abbrev S128 : Shape := ⟨1, ![128]⟩
abbrev S256x1 : Shape := ⟨2, ![256, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S600000x256 : Shape := ⟨2, ![600000, 256]⟩
abbrev S1x128 : Shape := ⟨2, ![1, 128]⟩
abbrev S200000x1 : Shape := ⟨2, ![200000, 1]⟩
abbrev S200000 : Shape := ⟨1, ![200000]⟩
abbrev S200000x128 : Shape := ⟨2, ![200000, 128]⟩
abbrev S200000x256 : Shape := ⟨2, ![200000, 256]⟩
abbrev S1x1 : Shape := ⟨2, ![1, 1]⟩
abbrev S4000x256 : Shape := ⟨2, ![4000, 256]⟩
abbrev S4000x1 : Shape := ⟨2, ![4000, 1]⟩

abbrev nBuf : Space → Nat
  | .hbm => 87
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S200000x2, .i32⟩
  | .hbm, ⟨3, _⟩ => ⟨S128x256, .f32⟩
  | .hbm, ⟨4, _⟩ => ⟨S256, .f32⟩
  | .hbm, ⟨5, _⟩ => ⟨S128x256, .f32⟩
  | .hbm, ⟨6, _⟩ => ⟨S256x128, .f32⟩
  | .hbm, ⟨7, _⟩ => ⟨S128, .f32⟩
  | .hbm, ⟨8, _⟩ => ⟨S256x128, .f32⟩
  | .hbm, ⟨9, _⟩ => ⟨S256x1, .f32⟩
  | .hbm, ⟨10, _⟩ => ⟨S1, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .f32⟩
  | .hbm, ⟨16, _⟩ => ⟨S600000, .f32⟩
  | .hbm, ⟨17, _⟩ => ⟨S_, .f32⟩
  | .hbm, ⟨18, _⟩ => ⟨S50000, .f32⟩
  | .hbm, ⟨19, _⟩ => ⟨S600000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S_, .i32⟩
  | .hbm, ⟨29, _⟩ => ⟨S600000, .i32⟩
  | .hbm, ⟨30, _⟩ => ⟨S600000, .i1⟩
  | .hbm, ⟨31, _⟩ => ⟨S_, .i32⟩
  | .hbm, ⟨32, _⟩ => ⟨S600000, .i32⟩
  | .hbm, ⟨33, _⟩ => ⟨S600000, .i32⟩
  | .hbm, ⟨34, _⟩ => ⟨S600000, .i32⟩
  | .hbm, ⟨35, _⟩ => ⟨S600000x1, .i32⟩
  | .hbm, ⟨36, _⟩ => ⟨S600000x128, .f32⟩
  | .hbm, ⟨37, _⟩ => ⟨S_, .f32⟩
  | .hbm, ⟨38, _⟩ => ⟨S50000x128, .f32⟩
  | .hbm, ⟨39, _⟩ => ⟨S600000x1, .i32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S1x256, .f32⟩
  | .hbm, ⟨44, _⟩ => ⟨S50000x256, .f32⟩
  | .hbm, ⟨45, _⟩ => ⟨S_, .i32⟩
  | .hbm, ⟨46, _⟩ => ⟨S600000, .i32⟩
  | .hbm, ⟨47, _⟩ => ⟨S600000, .i1⟩
  | .hbm, ⟨48, _⟩ => ⟨S_, .i32⟩
  | .hbm, ⟨49, _⟩ => ⟨S600000, .i32⟩
  | .hbm, ⟨50, _⟩ => ⟨S600000, .i32⟩
  | .hbm, ⟨51, _⟩ => ⟨S600000, .i32⟩
  | .hbm, ⟨52, _⟩ => ⟨S600000x1, .i32⟩
  | .hbm, ⟨53, _⟩ => ⟨S600000x256, .f32⟩
  | .hbm, ⟨54, _⟩ => ⟨S_, .f32⟩
  | .hbm, ⟨55, _⟩ => ⟨S50000x256, .f32⟩
  | .hbm, ⟨56, _⟩ => ⟨S600000x1, .i32⟩
  | .hbm, ⟨57, _⟩ => ⟨S50000x256, .f32⟩
  | .hbm, ⟨58, _⟩ => ⟨S50000x256, .f32⟩
  | .hbm, ⟨59, _⟩ => ⟨S50000x256, .f32⟩
  | .hbm, ⟨60, _⟩ => ⟨S1x128, .f32⟩
  | .hbm, ⟨61, _⟩ => ⟨S50000x128, .f32⟩
  | .hbm, ⟨62, _⟩ => ⟨S200000x1, .i32⟩
  | .hbm, ⟨63, _⟩ => ⟨S200000, .i32⟩
  | .hbm, ⟨64, _⟩ => ⟨S200000x1, .i32⟩
  | .hbm, ⟨65, _⟩ => ⟨S200000, .i32⟩
  | .hbm, ⟨66, _⟩ => ⟨S_, .i32⟩
  | .hbm, ⟨67, _⟩ => ⟨S200000, .i32⟩
  | .hbm, ⟨68, _⟩ => ⟨S200000, .i1⟩
  | .hbm, ⟨69, _⟩ => ⟨S_, .i32⟩
  | .hbm, ⟨70, _⟩ => ⟨S200000, .i32⟩
  | .hbm, ⟨71, _⟩ => ⟨S200000, .i32⟩
  | .hbm, ⟨72, _⟩ => ⟨S200000, .i32⟩
  | .hbm, ⟨73, _⟩ => ⟨S200000x1, .i32⟩
  | .hbm, ⟨74, _⟩ => ⟨S200000x128, .f32⟩
  | .hbm, ⟨75, _⟩ => ⟨S_, .i32⟩
  | .hbm, ⟨76, _⟩ => ⟨S200000, .i32⟩
  | .hbm, ⟨77, _⟩ => ⟨S200000, .i1⟩
  | .hbm, ⟨78, _⟩ => ⟨S_, .i32⟩
  | .hbm, ⟨79, _⟩ => ⟨S200000, .i32⟩
  | .hbm, ⟨80, _⟩ => ⟨S200000, .i32⟩
  | .hbm, ⟨81, _⟩ => ⟨S200000, .i32⟩
  | .hbm, ⟨82, _⟩ => ⟨S200000x1, .i32⟩
  | .hbm, ⟨83, _⟩ => ⟨S200000x128, .f32⟩
  | .hbm, ⟨84, _⟩ => ⟨S200000x256, .f32⟩
  | .hbm, ⟨85, _⟩ => ⟨S1x1, .f32⟩
  | .hbm, ⟨86, _⟩ => ⟨S200000x1, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S1x256, .f32⟩
  | .local _ .vmem, ⟨6, _⟩ => ⟨S128x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x128, .f32⟩
  | .local _ .vmem, ⟨14, _⟩ => ⟨S1x128, .f32⟩
  | .local _ .vmem, ⟨15, _⟩ => ⟨S256x128, .f32⟩
  | .local _ .vmem, ⟨16, _⟩ => ⟨S2000x128, .f32⟩
  | .local _ .vmem, ⟨17, _⟩ => ⟨S2000x128, .f32⟩
  | .local _ .vmem, ⟨18, _⟩ => ⟨S4000x256, .f32⟩
  | .local _ .vmem, ⟨19, _⟩ => ⟨S4000x256, .f32⟩
  | .local _ .vmem, ⟨20, _⟩ => ⟨S256x1, .f32⟩
  | .local _ .vmem, ⟨21, _⟩ => ⟨S1x1, .f32⟩
  | .local _ .vmem, ⟨22, _⟩ => ⟨S4000x1, .f32⟩
  | .local _ .vmem, ⟨23, _⟩ => ⟨S4000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_c_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S128_S1x128 : S128.ShapeCasts S1x128
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S200000x2_S200000x1_0_0 : S200000x2.Slices ![0, 0] S200000x1
  shapeCasts_S200000x1_S200000 : S200000x1.ShapeCasts S200000
  slices_S200000x2_S200000x1_0_1 : S200000x2.Slices ![0, 1] S200000x1
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S200000x256_d1 : Shape.Concatenates [S200000x128, S200000x128] S200000x256 1
  shapeCasts_S1_S1x1 : S1.ShapeCasts S1x1
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x256_S2000x256_1_0_0_1_n_n_wf : DotDims.WF S2000x128 S128x256 S2000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S2000x256_S256x128_S2000x128_1_0_0_1_n_n_wf : DotDims.WF S2000x256 S256x128 S2000x128 [1] [0] [0] [1] [] []
  gather_S50000x128_S200000x1_S200000x128_1_0_n_n_0_1_1128_wf : GatherDims.WF S50000x128 S200000x1 S200000x128 [1] [0] [] [0] [] 1 ![1, 128]
  dot_S4000x256_S256x1_S4000x1_1_0_0_1_n_n_wf : DotDims.WF S4000x256 S256x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S200000x256.size a
  hwx2_0 : ∀ i : grid2.Coords, EltTy.bits .f32 = 32 ∨ (Rect.block (s := S200000x256) S4000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x1.size a ≤ S256x1.size a
  hwx2_1 : ∀ i : grid2.Coords, EltTy.bits .f32 = 32 ∨ (Rect.block (s := S256x1) S256x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x1.size a ≤ S200000x1.size a
  hwx2_3 : ∀ i : grid2.Coords, EltTy.bits .f32 = 32 ∨ (Rect.block (s := S200000x1) S4000x1.size (cc2_transform_3 i) (hinb2_3 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S4000x256_S256x1_S4000x1_1_0_0_1_n_n : DotDims S4000x256 S256x1 S4000x1 where
  lhsContracting := [1]
  rhsContracting := [0]
  lhsNonContracting := [0]
  rhsNonContracting := [1]
  lhsBatch := []
  rhsBatch := []
  wf := dot_S4000x256_S256x1_S4000x1_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v59) S4000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S256x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S4000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S200000x2 : Shape := ⟨2, ![200000, 2]⟩
abbrev S128x256 : Shape := ⟨2, ![128, 256]⟩
abbrev S256 : Shape := ⟨1, ![256]⟩
abbrev S256x128 : Shape := ⟨2, ![256, 128]⟩
abbrev S128 : Shape := ⟨1, ![128]⟩
abbrev S256x1 : Shape := ⟨2, ![256, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S600000x256 : Shape := ⟨2, ![600000, 256]⟩
abbrev S1x128 : Shape := ⟨2, ![1, 128]⟩
abbrev S2x200000 : Shape := ⟨2, ![2, 200000]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S200000x256 : Shape := ⟨2, ![200000, 256]⟩
abbrev S1x1 : Shape := ⟨2, ![1, 1]⟩

abbrev nBuf : Space → Nat
  | .hbm => 116
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S200000x2, .i32⟩
  | .hbm, ⟨3, _⟩ => ⟨S128x256, .f32⟩
  | .hbm, ⟨4, _⟩ => ⟨S256, .f32⟩
  | .hbm, ⟨5, _⟩ => ⟨S128x256, .f32⟩
  | .hbm, ⟨6, _⟩ => ⟨S256x128, .f32⟩
  | .hbm, ⟨7, _⟩ => ⟨S128, .f32⟩
  | .hbm, ⟨8, _⟩ => ⟨S256x128, .f32⟩
  | .hbm, ⟨9, _⟩ => ⟨S256x1, .f32⟩
  | .hbm, ⟨10, _⟩ => ⟨S1, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .f32⟩
  | .hbm, ⟨25, _⟩ => ⟨S50000x128, .f32⟩
  | .hbm, ⟨26, _⟩ => ⟨S600000x1, .i32⟩
  | .hbm, ⟨27, _⟩ => ⟨S50000x128, .f32⟩
  | .hbm, ⟨28, _⟩ => ⟨S_, .f32⟩
  | .hbm, ⟨29, _⟩ => ⟨S600000, .f32⟩
  | .hbm, ⟨30, _⟩ => ⟨S_, .f32⟩
  | .hbm, ⟨31, _⟩ => ⟨S50000, .f32⟩
  | .hbm, ⟨32, _⟩ => ⟨S600000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x256, .f32⟩
  | .hbm, ⟨41, _⟩ => ⟨S1x256, .f32⟩
  | .hbm, ⟨42, _⟩ => ⟨S50000x256, .f32⟩
  | .hbm, ⟨43, _⟩ => ⟨S50000x256, .f32⟩
  | .hbm, ⟨44, _⟩ => ⟨S50000x256, .f32⟩
  | .hbm, ⟨45, _⟩ => ⟨S50000x256, .f32⟩
  | .hbm, ⟨46, _⟩ => ⟨S_, .f32⟩
  | .hbm, ⟨47, _⟩ => ⟨S50000x256, .f32⟩
  | .hbm, ⟨48, _⟩ => ⟨S50000x256, .f32⟩
  | .hbm, ⟨49, _⟩ => ⟨S_, .i32⟩
  | .hbm, ⟨50, _⟩ => ⟨S600000, .i32⟩
  | .hbm, ⟨51, _⟩ => ⟨S600000, .i1⟩
  | .hbm, ⟨52, _⟩ => ⟨S_, .i32⟩
  | .hbm, ⟨53, _⟩ => ⟨S600000, .i32⟩
  | .hbm, ⟨54, _⟩ => ⟨S600000, .i32⟩
  | .hbm, ⟨55, _⟩ => ⟨S600000, .i32⟩
  | .hbm, ⟨56, _⟩ => ⟨S600000x1, .i32⟩
  | .hbm, ⟨57, _⟩ => ⟨S600000x256, .f32⟩
  | .hbm, ⟨58, _⟩ => ⟨S_, .f32⟩
  | .hbm, ⟨59, _⟩ => ⟨S50000x256, .f32⟩
  | .hbm, ⟨60, _⟩ => ⟨S600000x1, .i32⟩
  | .hbm, ⟨61, _⟩ => ⟨S50000x256, .f32⟩
  | .hbm, ⟨62, _⟩ => ⟨S_, .f32⟩
  | .hbm, ⟨63, _⟩ => ⟨S600000, .f32⟩
  | .hbm, ⟨64, _⟩ => ⟨S_, .f32⟩
  | .hbm, ⟨65, _⟩ => ⟨S50000, .f32⟩
  | .hbm, ⟨66, _⟩ => ⟨S600000x1, .i32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x256, .f32⟩
  | .hbm, ⟨73, _⟩ => ⟨S50000x256, .f32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S2x200000, .i32⟩
  | .hbm, ⟨81, _⟩ => ⟨S1x200000, .i32⟩
  | .hbm, ⟨82, _⟩ => ⟨S200000, .i32⟩
  | .hbm, ⟨83, _⟩ => ⟨S_, .i32⟩
  | .hbm, ⟨84, _⟩ => ⟨S200000, .i32⟩
  | .hbm, ⟨85, _⟩ => ⟨S200000, .i1⟩
  | .hbm, ⟨86, _⟩ => ⟨S_, .i32⟩
  | .hbm, ⟨87, _⟩ => ⟨S200000, .i32⟩
  | .hbm, ⟨88, _⟩ => ⟨S200000, .i32⟩
  | .hbm, ⟨89, _⟩ => ⟨S200000, .i32⟩
  | .hbm, ⟨90, _⟩ => ⟨S200000x1, .i32⟩
  | .hbm, ⟨91, _⟩ => ⟨S200000x128, .f32⟩
  | .hbm, ⟨92, _⟩ => ⟨S1x200000, .i32⟩
  | .hbm, ⟨93, _⟩ => ⟨S200000, .i32⟩
  | .hbm, ⟨94, _⟩ => ⟨S_, .i32⟩
  | .hbm, ⟨95, _⟩ => ⟨S200000, .i32⟩
  | .hbm, ⟨96, _⟩ => ⟨S200000, .i1⟩
  | .hbm, ⟨97, _⟩ => ⟨S_, .i32⟩
  | .hbm, ⟨98, _⟩ => ⟨S200000, .i32⟩
  | .hbm, ⟨99, _⟩ => ⟨S200000, .i32⟩
  | .hbm, ⟨100, _⟩ => ⟨S200000, .i32⟩
  | .hbm, ⟨101, _⟩ => ⟨S200000x1, .i32⟩
  | .hbm, ⟨102, _⟩ => ⟨S200000x128, .f32⟩
  | .hbm, ⟨103, _⟩ => ⟨S200000x256, .f32⟩
  | .hbm, ⟨104, _⟩ => ⟨S200000x1, .f32⟩
  | .hbm, ⟨105, _⟩ => ⟨S1x1, .f32⟩
  | .hbm, ⟨106, _⟩ => ⟨S200000x1, .f32⟩
  | .hbm, ⟨107, _⟩ => ⟨S200000x1, .f32⟩
  | .hbm, ⟨108, _⟩ => ⟨S200000x1, .f32⟩
  | .hbm, ⟨109, _⟩ => ⟨S200000x1, .f32⟩
  | .hbm, ⟨110, _⟩ => ⟨S_, .f32⟩
  | .hbm, ⟨111, _⟩ => ⟨S200000x1, .f32⟩
  | .hbm, ⟨112, _⟩ => ⟨S200000x1, .f32⟩
  | .hbm, ⟨113, _⟩ => ⟨S_, .f32⟩
  | .hbm, ⟨114, _⟩ => ⟨S200000x1, .f32⟩
  | .hbm, ⟨115, _⟩ => ⟨S200000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_10 : Ref sig .tc := ⟨.hbm, 83, rfl⟩
abbrev main_v58 : Ref sig .tc := ⟨.hbm, 84, rfl⟩
abbrev main_v59 : Ref sig .tc := ⟨.hbm, 85, rfl⟩
abbrev main_c_11 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_12 : Ref sig .tc := ⟨.hbm, 94, rfl⟩
abbrev main_v67 : Ref sig .tc := ⟨.hbm, 95, rfl⟩
abbrev main_v68 : Ref sig .tc := ⟨.hbm, 96, rfl⟩
abbrev main_c_13 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_14 : Ref sig .tc := ⟨.hbm, 110, rfl⟩
abbrev main_v81 : Ref sig .tc := ⟨.hbm, 111, rfl⟩
abbrev main_v82 : Ref sig .tc := ⟨.hbm, 112, rfl⟩
abbrev main_cst_15 : Ref sig .tc := ⟨.hbm, 113, rfl⟩
abbrev main_v83 : Ref sig .tc := ⟨.hbm, 114, rfl⟩
abbrev main_v84 : Ref sig .tc := ⟨.hbm, 115, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S200000x2_S2x200000_1_0 : S200000x2.Transposes [1, 0] S2x200000
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  concatenates_S200000x128_S200000x128_S200000x256_d1 : Shape.Concatenates [S200000x128, S200000x128] S200000x256 1
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  bcast_S_S200000x1 : S_.BroadcastsInDim S200000x1 (![] : Fin 0 → Fin S200000x1.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x256_S50000x256_1_0_0_1_n_n_wf : DotDims.WF S50000x128 S128x256 S50000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S50000x256_S256x128_S50000x128_1_0_0_1_n_n_wf : DotDims.WF S50000x256 S256x128 S50000x128 [1] [0] [0] [1] [] []
  gather_S50000x128_S200000x1_S200000x128_1_0_n_n_0_1_1128_wf : GatherDims.WF S50000x128 S200000x1 S200000x128 [1] [0] [] [0] [] 1 ![1, 128]
  dot_S200000x256_S256x1_S200000x1_1_0_0_1_n_n_wf : DotDims.WF S200000x256 S256x1 S200000x1 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S200000x256_S256x1_S200000x1_1_0_0_1_n_n : DotDims S200000x256 S256x1 S200000x1 where
  lhsContracting := [1]
  rhsContracting := [0]
  lhsNonContracting := [0]
  rhsNonContracting := [1]
  lhsBatch := []
  rhsBatch := []
  wf := dot_S200000x256_S256x1_S200000x1_1_0_0_1_n_n_wf

class Facts : Prop extends Facts₀ where

variable [Facts]
-- ==== Proof.KTerms.lean ====
/-
  The host operations of the tiled program between its three regions, as named functions of the argument arrays.

  An edge list e holds a row of source nodes and a row of destination nodes. A source index below zero is counted from
  the end (50000 is added). The in-degree count is a sum of ones over the destinations, raised to one; its reciprocal is
  kept as a column. A layer's aggregate gathers the source rows of the node array, adds them up at the destinations
  and multiplies by the reciprocal column. The pair array joins, side by side, the rows of the second layer's result
  named by the two columns of the pair list.
-/
import proofs.«167262_j17119739641947_1_alg».proof.Proof.Gen.KernelIdeal
import Idealize.ShloMosaic.PureOps.Ideal

noncomputable section

namespace Cert.KernelIdeal.Terms

open Cert.KernelIdeal Cert.KernelIdeal.Gen Idealize.ShloMosaic

abbrev FArr (S : Shape) := FVec Ideal S .f32
abbrev IArr (S : Shape) := IVec S 32

/-- The source row of the edge list. -/
def srcRow (e : IArr S2x600000) : IArr S600000 :=
  shapeCast S600000 (extractStridedSlice S1x600000 ![0, 0] e slices_S2x600000_S1x600000_0_0) shapeCasts_S1x600000_S600000

/-- The destination row of the edge list. -/
def dstRow (e : IArr S2x600000) : IArr S600000 :=
  shapeCast S600000 (extractStridedSlice S1x600000 ![1, 0] e slices_S2x600000_S1x600000_1_0) shapeCasts_S1x600000_S600000

/-- Node indices below zero counted from the end, as a column. -/
def wrapCol (s : IArr S600000) : IArr S600000x1 :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 50000#32))) s)

/-- A row of node indices as a column. -/
def col (s : IArr S600000) : IArr S600000x1 := broadcastInDim S600000x1 ![0] bcast_S600000_S600000x1_0 s

/-- The in-degree count raised to one. -/
def count (d : IArr S600000) : FArr S50000 :=
  maximumf (F := Ideal) (Host.scatterAdd (F := Ideal) scatter_S50000_S600000x1_S600000_n_0_0_1
      (broadcastInDim S50000 ![] bcast_S_S50000 (constant (F := Ideal) S_ .f32 0x00000000#32)) (col d)
      (broadcastInDim S600000 ![] bcast_S_S600000 (constant (F := Ideal) S_ .f32 0x3F800000#32)))
    (broadcastInDim S50000 ![] bcast_S_S50000 (constant (F := Ideal) S_ .f32 0x3F800000#32))

/-- The reciprocal of the count, as a column. -/
def recipCol (d : IArr S600000) : FArr S50000x1 :=
  broadcastInDim S50000x1 ![0] bcast_S50000_S50000x1_0
    (Host.divf (F := Ideal) (broadcastInDim S50000 ![] bcast_S_S50000 (constant (F := Ideal) S_ .f32 0x3F800000#32)) (count d))

/-- Source rows of a 128-wide node array added up at the destinations. -/
def sum128 (x : FArr S50000x128) (s d : IArr S600000) : FArr S50000x128 :=
  Host.scatterAdd (F := Ideal) scatter_S50000x128_S600000x1_S600000x128_1_0_0_1
    (broadcastInDim S50000x128 ![] bcast_S_S50000x128 (constant (F := Ideal) S_ .f32 0x00000000#32)) (col d)
    (Host.gather gather_S50000x128_S600000x1_S600000x128_1_0_n_n_0_1_1128 x (wrapCol s))

/-- Source rows of a 256-wide node array added up at the destinations. -/
def sum256 (x : FArr S50000x256) (s d : IArr S600000) : FArr S50000x256 :=
  Host.scatterAdd (F := Ideal) scatter_S50000x256_S600000x1_S600000x256_1_0_0_1
    (broadcastInDim S50000x256 ![] bcast_S_S50000x256 (constant (F := Ideal) S_ .f32 0x00000000#32)) (col d)
    (Host.gather gather_S50000x256_S600000x1_S600000x256_1_0_n_n_0_1_1256 x (wrapCol s))

/-- The first layer's mean aggregate: the sums times the reciprocal column. -/
def agg128 (x : FArr S50000x128) (s d : IArr S600000) (rc : FArr S50000x1) : FArr S50000x128 :=
  mulf (F := Ideal) (sum128 x s d) (broadcastInDim S50000x128 ![0, 1] bcast_S50000x1_S50000x128_0_1 rc)

/-- The second layer's mean aggregate. -/
def agg256 (x : FArr S50000x256) (s d : IArr S600000) (rc : FArr S50000x1) : FArr S50000x256 :=
  mulf (F := Ideal) (sum256 x s d) (broadcastInDim S50000x256 ![0, 1] bcast_S50000x1_S50000x256_0_1 rc)

/-- Column j of the pair list, indices below zero counted from the end, as a column. -/
def pairCol0 (mk : IArr S200000x2) : IArr S200000 :=
  shapeCast S200000 (extractStridedSlice S200000x1 ![0, 0] mk slices_S200000x2_S200000x1_0_0) shapeCasts_S200000x1_S200000
def pairCol1 (mk : IArr S200000x2) : IArr S200000 :=
  shapeCast S200000 (extractStridedSlice S200000x1 ![0, 1] mk slices_S200000x2_S200000x1_0_1) shapeCasts_S200000x1_S200000
def wrapCol2 (s : IArr S200000) : IArr S200000x1 :=
  broadcastInDim S200000x1 ![0] bcast_S200000_S200000x1_0
    (select (cmpi .slt s (broadcastInDim S200000 ![] bcast_S_S200000 (constantI S_ 32 0#32)))
      (addi s (broadcastInDim S200000 ![] bcast_S_S200000 (constantI S_ 32 50000#32))) s)

/-- The rows of a node array named by the two columns of the pair list, joined side by side. -/
def pairOf (h : FArr S50000x128) (mk : IArr S200000x2) : FArr S200000x256 :=
  concatenate S200000x256 1
    [⟨S200000x128, Host.gather gather_S50000x128_S200000x1_S200000x128_1_0_n_n_0_1_1128 h (wrapCol2 (pairCol0 mk))⟩,
     ⟨S200000x128, Host.gather gather_S50000x128_S200000x1_S200000x128_1_0_n_n_0_1_1128 h (wrapCol2 (pairCol1 mk))⟩]
    concatenates_S200000x128_S200000x128_S200000x256_d1

end Cert.KernelIdeal.Terms

end
-- ==== Proof.Stretch0.lean ====
/-
  The host operations before the first region, read over any starting contents W of the buffers: the first layer's mean
  aggregate and bias row, the edge list's two rows and the reciprocal column (which the second stretch reads again), and
  the argument buffers this stretch does not write.
-/
import proofs.«167262_j17119739641947_1_alg».proof.Proof.Gen.KernelIdeal.Launch
import proofs.«167262_j17119739641947_1_alg».proof.Proof.KTerms
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Stretch0

open Cert.KernelIdeal Cert.KernelIdeal.Gen Cert.KernelIdeal.Terms

variable (W : Valuation τ sig (Elt Ideal))

set_option maxHeartbeats 4000000 in
/-- The source row of the edge list. -/
theorem v1 : StableHlo.after hostOps0 W (Proc.devRef .tc main_v1) = srcRow (W (Proc.devRef .tc main_arg1)) := by
  after_results
  rfl

set_option maxHeartbeats 4000000 in
/-- The destination row of the edge list. -/
theorem v3 : StableHlo.after hostOps0 W (Proc.devRef .tc main_v3) = dstRow (W (Proc.devRef .tc main_arg1)) := by
  after_results
  rfl

set_option maxHeartbeats 4000000 in
/-- The reciprocal column of the counts. -/
theorem v12 : StableHlo.after hostOps0 W (Proc.devRef .tc main_v12) = recipCol (dstRow (W (Proc.devRef .tc main_arg1))) := by
  after_results
  rfl

set_option maxHeartbeats 8000000 in
/-- The first layer's mean aggregate. -/
theorem v24 : StableHlo.after hostOps0 W (Proc.devRef .tc main_v24)
    = agg128 (W (Proc.devRef .tc main_arg0)) (srcRow (W (Proc.devRef .tc main_arg1))) (dstRow (W (Proc.devRef .tc main_arg1)))
        (recipCol (dstRow (W (Proc.devRef .tc main_arg1)))) := by
  after_results
  rfl

set_option maxHeartbeats 4000000 in
/-- The first layer's bias as a row. -/
theorem v25 : StableHlo.after hostOps0 W (Proc.devRef .tc main_v25) = shapeCast S1x256 (W (Proc.devRef .tc main_arg4)) shapeCasts_S256_S1x256 := by
  after_results
  rfl

set_option maxHeartbeats 4000000 in
theorem arg0 : StableHlo.after hostOps0 W (Proc.devRef .tc main_arg0) = W (Proc.devRef .tc main_arg0) := by
  after_results

set_option maxHeartbeats 4000000 in
theorem arg2 : StableHlo.after hostOps0 W (Proc.devRef .tc main_arg2) = W (Proc.devRef .tc main_arg2) := by
  after_results

set_option maxHeartbeats 4000000 in
theorem arg3 : StableHlo.after hostOps0 W (Proc.devRef .tc main_arg3) = W (Proc.devRef .tc main_arg3) := by
  after_results

set_option maxHeartbeats 4000000 in
theorem arg5 : StableHlo.after hostOps0 W (Proc.devRef .tc main_arg5) = W (Proc.devRef .tc main_arg5) := by
  after_results

set_option maxHeartbeats 4000000 in
theorem arg6 : StableHlo.after hostOps0 W (Proc.devRef .tc main_arg6) = W (Proc.devRef .tc main_arg6) := by
  after_results

set_option maxHeartbeats 4000000 in
theorem arg7 : StableHlo.after hostOps0 W (Proc.devRef .tc main_arg7) = W (Proc.devRef .tc main_arg7) := by
  after_results

set_option maxHeartbeats 4000000 in
theorem arg8 : StableHlo.after hostOps0 W (Proc.devRef .tc main_arg8) = W (Proc.devRef .tc main_arg8) := by
  after_results

set_option maxHeartbeats 4000000 in
theorem arg9 : StableHlo.after hostOps0 W (Proc.devRef .tc main_arg9) = W (Proc.devRef .tc main_arg9) := by
  after_results

set_option maxHeartbeats 4000000 in
theorem arg10 : StableHlo.after hostOps0 W (Proc.devRef .tc main_arg10) = W (Proc.devRef .tc main_arg10) := by
  after_results

end Cert.KernelIdeal.Stretch0

end
-- ==== Proof.Stretch1.lean ====
/-
  The host operations between the first and the second region, read over any starting contents W: the second layer's
  mean aggregate (of the first layer's result, the edge rows and the reciprocal column as W holds them) and bias row, and
  the buffers this stretch does not write.
-/
import proofs.«167262_j17119739641947_1_alg».proof.Proof.Gen.KernelIdeal.Launch
import proofs.«167262_j17119739641947_1_alg».proof.Proof.KTerms
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Stretch1

open Cert.KernelIdeal Cert.KernelIdeal.Gen Cert.KernelIdeal.Terms

variable (W : Valuation τ sig (Elt Ideal))

set_option maxHeartbeats 8000000 in
/-- The second layer's mean aggregate. -/
theorem v38 : StableHlo.after hostOps1 W (Proc.devRef .tc main_v38)
    = agg256 (W (Proc.devRef .tc main_v26)) (W (Proc.devRef .tc main_v1)) (W (Proc.devRef .tc main_v3)) (W (Proc.devRef .tc main_v12)) := by
  after_results
  rfl

set_option maxHeartbeats 4000000 in
/-- The second layer's bias as a row. -/
theorem v39 : StableHlo.after hostOps1 W (Proc.devRef .tc main_v39) = shapeCast S1x128 (W (Proc.devRef .tc main_arg7)) shapeCasts_S128_S1x128 := by
  after_results
  rfl

set_option maxHeartbeats 4000000 in
theorem v26 : StableHlo.after hostOps1 W (Proc.devRef .tc main_v26) = W (Proc.devRef .tc main_v26) := by
  after_results

set_option maxHeartbeats 4000000 in
theorem arg2 : StableHlo.after hostOps1 W (Proc.devRef .tc main_arg2) = W (Proc.devRef .tc main_arg2) := by
  after_results

set_option maxHeartbeats 4000000 in
theorem arg6 : StableHlo.after hostOps1 W (Proc.devRef .tc main_arg6) = W (Proc.devRef .tc main_arg6) := by
  after_results

set_option maxHeartbeats 4000000 in
theorem arg8 : StableHlo.after hostOps1 W (Proc.devRef .tc main_arg8) = W (Proc.devRef .tc main_arg8) := by
  after_results

set_option maxHeartbeats 4000000 in
theorem arg9 : StableHlo.after hostOps1 W (Proc.devRef .tc main_arg9) = W (Proc.devRef .tc main_arg9) := by
  after_results

set_option maxHeartbeats 4000000 in
theorem arg10 : StableHlo.after hostOps1 W (Proc.devRef .tc main_arg10) = W (Proc.devRef .tc main_arg10) := by
  after_results

end Cert.KernelIdeal.Stretch1

end
-- ==== Proof.Stretch2.lean ====
/-
  The host operations between the second and the third region, read over any starting contents W: the pair array (rows
  of the second layer's result named by the pair list's two columns, joined side by side), the head's bias as a 1 x 1
  array, and the weight column, which this stretch does not write.
-/
import proofs.«167262_j17119739641947_1_alg».proof.Proof.Gen.KernelIdeal.Launch
import proofs.«167262_j17119739641947_1_alg».proof.Proof.KTerms
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Stretch2

open Cert.KernelIdeal Cert.KernelIdeal.Gen Cert.KernelIdeal.Terms

variable (W : Valuation τ sig (Elt Ideal))

set_option maxHeartbeats 8000000 in
/-- The pair array. -/
theorem v59 : StableHlo.after hostOps2 W (Proc.devRef .tc main_v59) = pairOf (W (Proc.devRef .tc main_v40)) (W (Proc.devRef .tc main_arg2)) := by
  after_results
  rfl

set_option maxHeartbeats 4000000 in
/-- The head's bias as a 1 x 1 array. -/
theorem v60 : StableHlo.after hostOps2 W (Proc.devRef .tc main_v60) = shapeCast S1x1 (W (Proc.devRef .tc main_arg10)) shapeCasts_S1_S1x1 := by
  after_results
  rfl

set_option maxHeartbeats 4000000 in
theorem arg9 : StableHlo.after hostOps2 W (Proc.devRef .tc main_arg9) = W (Proc.devRef .tc main_arg9) := by
  after_results

end Cert.KernelIdeal.Stretch2

end
-- ==== Proof.LibBlocks.lean ====
/-
  ROW BLOCKS OF A TWO-AXIS ARRAY, AND TWO BLOCK BODIES READ AT ONE ELEMENT.

  An array [N, b] is worked in blocks of n consecutive rows: block t holds rows n t … n t + n - 1, so row r lies in
  block r / n at local row r - n (r / n) (row_in_block). Two bodies of such a block, each set beside the whole-array
  operation it is a block of, at the extended reals:

  * bias and rectifier: element (p, q) of max(block + bias row, 0) is max(block (p, q) + bias (0, q), 0), and element
    (r, q) of max(array + bias row broadcast down the rows, 0) is max(array (r, q) + bias (0, q), 0): equal when block
    element (p, q) is array element (r, q) (biasRelu_apply);
  * matrix product: element (p, q) of a block [n, K] times a matrix [K, b], accumulated from zero, is the sum over k of
    block (p, k) matrix (k, q), and element (r, q) of the host's product of the array [N, K] with the matrix is the sum
    over k of array (r, k) matrix (k, q): equal when block row p is array row r (matmul_plain_apply,
    dotGeneral_plain_apply, matmul_eq_dotGeneral_apply). A change of float format on the way in is the identity here.

  Generic in the extents; a program's dimension numbers enter through an equation with the library's plain
  rows-by-columns record.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibBlocks

open Idealize.ShloMosaic Idealize.ShloMosaic.ValueIdx

/-! ## Rows in blocks -/

/-- Row r of nb blocks of bs rows each lies in block r / bs, between that block's first row and its last. -/
theorem row_in_block {nb bs r : Nat} (hbs : 0 < bs) (hr : r < nb * bs) :
    r / bs < nb ∧ r / bs * bs ≤ r ∧ r < r / bs * bs + bs :=
  ⟨Nat.div_lt_of_lt_mul (by rwa [Nat.mul_comm] at hr), Nat.div_mul_le_self r bs, Nat.lt_div_mul_add hbs⟩

/-- The zero offsets of a two-axis block, as the constant function. -/
theorem off2_zero : (![0, 0] : Fin 2 → Nat) = fun _ => 0 := funext fun a => by fin_cases a <;> rfl

/-! ## Bias and rectifier -/

/-- Element (p, q) of max(block + bias row, 0) against element (r, q) of max(array + bias row, 0), the bias row
    broadcast down the rows on both sides: equal when block element (p, q) is array element (r, q) and the two bias
    rows are the same. -/
theorem biasRelu_apply {n N b : Nat}
    (hc0 : (⟨2, ![n, b]⟩ : Shape).ShapeCasts ⟨2, ![n, b]⟩) (hc1 : (⟨2, ![1, b]⟩ : Shape).ShapeCasts ⟨2, ![1, b]⟩)
    (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (x0 : FVec Ideal ⟨2, ![n, b]⟩ .f32) (x1 : FVec Ideal ⟨2, ![1, b]⟩ .f32)
    (a : FVec Ideal ⟨2, ![N, b]⟩ .f32) (b2 : FVec Ideal ⟨2, ![1, b]⟩ .f32)
    (p : Fin n) (r : Fin N) (q : Fin b) (h0 : x0 (ix2 p q) = a (ix2 r q)) (h1 : x1 = b2) :
    maximumf (addf (shapeCast ⟨2, ![n, b]⟩ x0 hc0) (broadcastTo ⟨2, ![n, b]⟩ (shapeCast ⟨2, ![1, b]⟩ x1 hc1) hb))
        (broadcast ⟨2, ![n, b]⟩ (Scalar.ofBits (F := Ideal) .f32 0x00000000#32)) (ix2 p q)
      = maximumf (addf a (broadcastInDim ⟨2, ![N, b]⟩ ![0, 1] hbd b2))
        (broadcastInDim ⟨2, ![N, b]⟩ ![] hz (constant (F := Ideal) ⟨0, ![]⟩ .f32 0x00000000#32)) (ix2 r q) := by
  subst h1
  rw [maximumf_apply, maximumf_apply, addf_apply, addf_apply, shapeCast_self, shapeCast_self,
    broadcastTo_apply x1 hb (ix2 p q) (ix2 (0 : Fin 1) q) (fun a => by
      match a with
      | ⟨0, _⟩ => rfl
      | ⟨1, _⟩ =>
        show q.val = if b = 1 then 0 else q.val
        have := q.isLt
        split_ifs <;> omega),
    broadcastInDim_apply ![0, 1] hbd x1 (ix2 r q) (ix2 (0 : Fin 1) q) (fun a => by
      match a with
      | ⟨0, _⟩ => rfl
      | ⟨1, _⟩ =>
        show q.val = if b = 1 then 0 else q.val
        have := q.isLt
        split_ifs <;> omega),
    broadcastInDim_apply ![] hz (constant (F := Ideal) ⟨0, ![]⟩ .f32 0x00000000#32) (ix2 r q) ix0 (fun a => a.elim0),
    h0]
  rfl

/-! ## The matrix product -/

section Plain

variable {M K N : Nat}

/-- In a rows-by-columns product the left operand is read at the result's row and the contraction position … -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ =>
    show ((DotDims.plain M K N).lhsIdx (ix2 p q) _ 0).val = p.val
    unfold DotDims.lhsIdx
    rw [dif_neg (show ¬(0 : Fin (⟨2, ![M, K]⟩ : Shape).rank) ∈ (DotDims.plain M K N).lhsBatch from List.not_mem_nil),
      dif_pos (show (0 : Fin (⟨2, ![M, K]⟩ : Shape).rank) ∈ (DotDims.plain M K N).lhsNonContracting from List.mem_singleton.mpr rfl)]
    rfl
  | ⟨1, _⟩ =>
    exact ((DotDims.plain M K N).lhsIdx_val_of_single (cl := 1) rfl (ix2 p q) _).trans hk

/-- … and the right operand at the contraction position and the result's column. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin (⟨2, ![K, N]⟩ : Shape).rank) ∈ (DotDims.plain M K N).rhsBatch from List.not_mem_nil),
      dif_pos (show (1 : Fin (⟨2, ![K, N]⟩ : Shape).rank) ∈ (DotDims.plain M K N).rhsNonContracting from List.mem_singleton.mpr rfl)]
    rfl

/-- The matrix unit's product into a zero accumulator, at element (p, q): the sum over k of left (p, k) right (k, q). -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product at element (p, q): the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  rw [Ideal.dotGeneral_apply, ← Equiv.sum_comp (contrEquiv1 (DotDims.plain M K N) K rfl rfl).symm]
  refine Finset.sum_congr rfl fun k _ => ?_
  rw [plain_lhsIdx, plain_rhsIdx]

end Plain

/-- Element (p, q) of a block [n, K] times a matrix [K, b] on the matrix unit, both narrowed on the way in and
    accumulated from zero, against element (r, q) of the host's product of an array [N, K] with a matrix: equal when
    block row p is array row r and the matrices are the same. -/
theorem matmul_eq_dotGeneral_apply {n N K b : Nat}
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hc0 : (⟨2, ![n, K]⟩ : Shape).ShapeCasts ⟨2, ![n, K]⟩) (hc1 : (⟨2, ![K, b]⟩ : Shape).ShapeCasts ⟨2, ![K, b]⟩)
    (hlt : FTy.bf16.bits < FTy.f32.bits)
    (x0 : FVec Ideal ⟨2, ![n, K]⟩ .f32) (x1 : FVec Ideal ⟨2, ![K, b]⟩ .f32)
    (h : FVec Ideal ⟨2, ![N, K]⟩ .f32) (w : FVec Ideal ⟨2, ![K, b]⟩ .f32)
    (p : Fin n) (r : Fin N) (q : Fin b) (h0 : ∀ k : Fin K, x0 (ix2 p k) = h (ix2 r k)) (h1 : x1 = w) :
    matmul dk none (truncf .bf16 (shapeCast ⟨2, ![n, K]⟩ x0 hc0) hlt) (truncf .bf16 (shapeCast ⟨2, ![K, b]⟩ x1 hc1) hlt)
        (constant ⟨2, ![n, b]⟩ .f32 0x00000000#32) (ix2 p q)
      = Host.dotGeneral dr none h w (ix2 r q) := by
  subst h1
  rw [shapeCast_self, shapeCast_self]
  show FloatOps.matmul dk none _ _ _ _ = FloatOps.dotGeneral dr none .single h x1 (ix2 r q)
  rw [matmul_plain_apply dk hdk, dotGeneral_plain_apply dr hdr]
  refine Finset.sum_congr rfl fun k _ => ?_
  rw [truncf_apply, truncf_apply, h0 k]

end Cert.LibBlocks

end
-- ==== Proof.LibDenseLayer.lean ====
/-
  ONE DENSE LAYER ON A BLOCK OF ROWS, SET BESIDE THE SAME LAYER ON THE WHOLE ARRAY, READ AT ONE ENTRY.

  A dense layer sends a row x of K numbers to the row  q ↦ (Σ_k x_k · w(k, q)) + c(0, q),  optionally followed by the
  rectifier max(·, 0). It acts on every row by itself. So if row p of a block [n, K] is row r of an array [N, K], then
  entry (p, q) of the layer applied to the block is entry (r, q) of the layer applied to the array:

  * product_entry: the matrix unit's product into a zero accumulator, both operands narrowed on the way in, against
    the host's product (a change of float format is the identity on the extended reals, and both products are the
    sum over k of left (row, k) · right (k, q), in the same order);
  * hidden_entry: product, bias row broadcast down the rows, rectifier;
  * out_entry: product and bias row only.

  The bias is a 1 x b row on both sides; the block broadcasts it as a vector broadcast, the array along its two axes.
  Generic in the extents; a program's dimension numbers enter through an equation with the plain rows-by-columns
  record.
-/
import proofs.«167262_j17119739641947_1_alg».proof.Proof.LibBlocks

noncomputable section

open scoped BigOperators

namespace Cert.LibDenseLayer

open Idealize.ShloMosaic Idealize.ShloMosaic.ValueIdx

variable {n N K b : Nat}

/-- The product: entry (p, q) of block times matrix is entry (r, q) of array times matrix, when block row p is array
    row r. -/
theorem product_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (X : FVec Ideal ⟨2, ![n, K]⟩ .f32) (XX : FVec Ideal ⟨2, ![N, K]⟩ .f32) (w : FVec Ideal ⟨2, ![K, b]⟩ .f32)
    (p : Fin n) (r : Fin N) (h0 : ∀ k : Fin K, X (ix2 p k) = XX (ix2 r k)) (q : Fin b) :
    matmul dk none (truncf .bf16 X hlt) (truncf .bf16 w hlt) (constant ⟨2, ![n, b]⟩ .f32 0x00000000#32) (ix2 p q)
      = Host.dotGeneral dr none XX w (ix2 r q) := by
  show FloatOps.matmul dk none _ _ _ _ = FloatOps.dotGeneral dr none .single XX w (ix2 r q)
  rw [Cert.LibBlocks.matmul_plain_apply dk hdk, Cert.LibBlocks.dotGeneral_plain_apply dr hdr]
  refine Finset.sum_congr rfl fun k _ => ?_
  rw [truncf_apply, truncf_apply, h0 k]

/-- The bias row broadcast down the rows of a block, at entry (p, q): the row's entry q. -/
theorem bias_block_entry
    (hc1 : (⟨2, ![1, b]⟩ : Shape).ShapeCasts ⟨2, ![1, b]⟩) (hb : (⟨2, ![1, b]⟩ : Shape).Broadcasts ⟨2, ![n, b]⟩)
    (c : FVec Ideal ⟨2, ![1, b]⟩ .f32) (p : Fin n) (q : Fin b) :
    broadcastTo ⟨2, ![n, b]⟩ (shapeCast ⟨2, ![1, b]⟩ c hc1) hb (ix2 p q) = c (ix2 (0 : Fin 1) q) := by
  rw [shapeCast_self]
  exact broadcastTo_apply c hb (ix2 p q) (ix2 (0 : Fin 1) q) (fun a => by
    match a with
    | ⟨0, _⟩ => rfl
    | ⟨1, _⟩ =>
      show q.val = if b = 1 then 0 else q.val
      have := q.isLt
      split_ifs <;> omega)

/-- The bias row broadcast along both axes of the array, at entry (r, q): the row's entry q. -/
theorem bias_array_entry
    (hbd : (⟨2, ![1, b]⟩ : Shape).BroadcastsInDim ⟨2, ![N, b]⟩ ![0, 1])
    (c : FVec Ideal ⟨2, ![1, b]⟩ .f32) (r : Fin N) (q : Fin b) :
    broadcastInDim ⟨2, ![N, b]⟩ ![0, 1] hbd c (ix2 r q) = c (ix2 (0 : Fin 1) q) :=
  broadcastInDim_apply ![0, 1] hbd c (ix2 r q) (ix2 (0 : Fin 1) q) (fun a => by
    match a with
    | ⟨0, _⟩ => rfl
    | ⟨1, _⟩ =>
      show q.val = if b = 1 then 0 else q.val
      have := q.isLt
      split_ifs <;> omega)

/-- Product and bias: entry (p, q) on the block is entry (r, q) on the array. -/
theorem out_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (hc1 : (⟨2, ![1, b]⟩ : Shape).ShapeCasts ⟨2, ![1, b]⟩) (hb : (⟨2, ![1, b]⟩ : Shape).Broadcasts ⟨2, ![n, b]⟩)
    (hbd : (⟨2, ![1, b]⟩ : Shape).BroadcastsInDim ⟨2, ![N, b]⟩ ![0, 1])
    (X : FVec Ideal ⟨2, ![n, K]⟩ .f32) (XX : FVec Ideal ⟨2, ![N, K]⟩ .f32) (w : FVec Ideal ⟨2, ![K, b]⟩ .f32)
    (c : FVec Ideal ⟨2, ![1, b]⟩ .f32)
    (p : Fin n) (r : Fin N) (h0 : ∀ k : Fin K, X (ix2 p k) = XX (ix2 r k)) (q : Fin b) :
    addf (matmul dk none (truncf .bf16 X hlt) (truncf .bf16 w hlt) (constant ⟨2, ![n, b]⟩ .f32 0x00000000#32))
        (broadcastTo ⟨2, ![n, b]⟩ (shapeCast ⟨2, ![1, b]⟩ c hc1) hb) (ix2 p q)
      = addf (Host.dotGeneral dr none XX w) (broadcastInDim ⟨2, ![N, b]⟩ ![0, 1] hbd c) (ix2 r q) := by
  rw [addf_apply, addf_apply, product_entry dk hdk dr hdr hlt X XX w p r h0 q, bias_block_entry hc1 hb c p q,
    bias_array_entry hbd c r q]

/-- Product, bias and rectifier: entry (p, q) on the block is entry (r, q) on the array. -/
theorem hidden_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (hc1 : (⟨2, ![1, b]⟩ : Shape).ShapeCasts ⟨2, ![1, b]⟩) (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (X : FVec Ideal ⟨2, ![n, K]⟩ .f32) (XX : FVec Ideal ⟨2, ![N, K]⟩ .f32) (w : FVec Ideal ⟨2, ![K, b]⟩ .f32)
    (c : FVec Ideal ⟨2, ![1, b]⟩ .f32)
    (p : Fin n) (r : Fin N) (h0 : ∀ k : Fin K, X (ix2 p k) = XX (ix2 r k)) (q : Fin b) :
    maximumf (addf (matmul dk none (truncf .bf16 X hlt) (truncf .bf16 w hlt) (constant ⟨2, ![n, b]⟩ .f32 0x00000000#32))
          (broadcastTo ⟨2, ![n, b]⟩ (shapeCast ⟨2, ![1, b]⟩ c hc1) hb))
        (broadcast ⟨2, ![n, b]⟩ (Scalar.ofBits (F := Ideal) .f32 0x00000000#32)) (ix2 p q)
      = maximumf (addf (Host.dotGeneral dr none XX w) (broadcastInDim ⟨2, ![N, b]⟩ ![0, 1] hbd c))
        (broadcastInDim ⟨2, ![N, b]⟩ ![] hz (constant (F := Ideal) ⟨0, ![]⟩ .f32 0x00000000#32)) (ix2 r q) := by
  rw [maximumf_apply, maximumf_apply, out_entry dk hdk dr hdr hlt hc1 hb hbd X XX w c p r h0 q,
    broadcastInDim_apply ![] hz (constant (F := Ideal) ⟨0, ![]⟩ .f32 0x00000000#32) (ix2 r q) ix0 (fun a => a.elim0)]
  rfl

end Cert.LibDenseLayer

end
-- ==== Proof.LibReal.lean ====
/-
  Which array operations keep every entry a real number.

  At the ideal instance a float is an extended real: a real number, or one of the two infinities.  The
  arithmetic of the extended reals is the reals' arithmetic only away from the infinities, so a statement about
  a network's value has to know that no infinity arises on the way.  This file says of each array operation
  that it maps arrays of real entries to arrays of real entries: the pointwise sum, difference, product and
  maximum; the choice between two arrays; every re-indexing (repeating along new axes, recasting the shape,
  cutting a block out, taking rows by an index array); a constant whose bit pattern denotes a real; the
  quotient by nonzero reals; the reciprocal square root of positive reals; a sum along an axis; a matrix
  product; and the accumulation of rows into a table.  Each statement is generic in the shapes.
-/
import Idealize.ShloMosaic.PureOps.Ideal
import Idealize.ShloMosaic.PureOps.Ideal.Laws

noncomputable section

namespace Cert.LibReal

open Idealize.ShloMosaic

/-- Every entry of the array is a real number: neither infinity. -/
def AllReal {S : Shape} (a : S.Idx → EReal) : Prop := ∀ i, ∃ r : ℝ, a i = (r : EReal)

/-- Every entry of the array is a nonzero real number. -/
def AllNonzero {S : Shape} (a : S.Idx → EReal) : Prop := ∀ i, ∃ r : ℝ, r ≠ 0 ∧ a i = (r : EReal)

/-- Every entry of the array is a positive real number. -/
def AllPos {S : Shape} (a : S.Idx → EReal) : Prop := ∀ i, ∃ r : ℝ, 0 < r ∧ a i = (r : EReal)

/-- Positive reals are nonzero reals. -/
theorem AllPos.allNonzero {S : Shape} {a : S.Idx → EReal} (h : AllPos a) : AllNonzero a := fun i => by
  obtain ⟨r, hr, e⟩ := h i
  exact ⟨r, hr.ne', e⟩

/-- Nonzero reals are reals. -/
theorem AllNonzero.allReal {S : Shape} {a : S.Idx → EReal} (h : AllNonzero a) : AllReal a := fun i => by
  obtain ⟨r, _, e⟩ := h i
  exact ⟨r, e⟩

/-- Positive reals are reals. -/
theorem AllPos.allReal {S : Shape} {a : S.Idx → EReal} (h : AllPos a) : AllReal a := h.allNonzero.allReal

/-- A finite sum of reals, taken in the extended reals, is the real sum. -/
theorem coe_finset_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of extended reals each of which is a real number is a real number. -/
theorem exists_real_sum {ι : Type} (s : Finset ι) (f : ι → EReal) (h : ∀ k ∈ s, ∃ r : ℝ, f k = (r : EReal)) :
    ∃ r : ℝ, ∑ k ∈ s, f k = (r : EReal) := by
  classical
  choose! g hg using h
  exact ⟨∑ k ∈ s, g k, by rw [coe_finset_sum]; exact Finset.sum_congr rfl hg⟩

/-! ## Pointwise operations -/

section Pointwise
variable {S : Shape} {φ : FTy}

/-- The entrywise sum of two arrays of reals is an array of reals. -/
theorem addf_allReal {a b : FVec Ideal S φ} (ha : AllReal a) (hb : AllReal b) : AllReal (addf a b) := fun i => by
  obtain ⟨r, hr⟩ := ha i
  obtain ⟨t, ht⟩ := hb i
  exact ⟨r + t, by show a i + b i = _; rw [hr, ht, EReal.coe_add]⟩

/-- The entrywise difference of two arrays of reals is an array of reals. -/
theorem subf_allReal {a b : FVec Ideal S φ} (ha : AllReal a) (hb : AllReal b) : AllReal (subf a b) := fun i => by
  obtain ⟨r, hr⟩ := ha i
  obtain ⟨t, ht⟩ := hb i
  exact ⟨r - t, by show a i - b i = _; rw [hr, ht, EReal.coe_sub]⟩

/-- The entrywise product of two arrays of reals is an array of reals. -/
theorem mulf_allReal {a b : FVec Ideal S φ} (ha : AllReal a) (hb : AllReal b) : AllReal (mulf a b) := fun i => by
  obtain ⟨r, hr⟩ := ha i
  obtain ⟨t, ht⟩ := hb i
  exact ⟨r * t, by show a i * b i = _; rw [hr, ht, EReal.coe_mul]⟩

/-- The entrywise maximum of two arrays of reals is an array of reals: at each entry it is one of the two. -/
theorem maximumf_allReal {a b : FVec Ideal S φ} (ha : AllReal a) (hb : AllReal b) : AllReal (maximumf a b) := fun i => by
  show ∃ r : ℝ, max (a i) (b i) = (r : EReal)
  rcases le_total (a i) (b i) with h | h
  · rw [max_eq_right h]; exact hb i
  · rw [max_eq_left h]; exact ha i

/-- The entrywise maximum with an array of positive reals is positive when the other array is real. -/
theorem maximumf_allPos_right {a b : FVec Ideal S φ} (ha : AllReal a) (hb : AllPos b) : AllPos (maximumf a b) := fun i => by
  show ∃ r : ℝ, 0 < r ∧ max (a i) (b i) = (r : EReal)
  obtain ⟨r, hr⟩ := ha i
  obtain ⟨t, ht0, ht⟩ := hb i
  refine ⟨max r t, lt_max_of_lt_right ht0, ?_⟩
  rw [hr, ht]
  rcases le_total r t with h | h
  · rw [max_eq_right h, max_eq_right (EReal.coe_le_coe_iff.mpr h)]
  · rw [max_eq_left h, max_eq_left (EReal.coe_le_coe_iff.mpr h)]

/-- Choosing entry by entry between two arrays of reals gives an array of reals. -/
theorem select_allReal (p : IVec S 1) {a b : S.Idx → EReal} (ha : AllReal a) (hb : AllReal b) :
    AllReal (select p a b) := fun i => by
  show ∃ r : ℝ, (if p i = 1 then a i else b i) = (r : EReal)
  split
  · exact ha i
  · exact hb i

/-- The entrywise quotient of an array of reals by an array of nonzero reals is an array of reals. -/
theorem divf_allReal {a b : FVec Ideal S φ} (ha : AllReal a) (hb : AllNonzero b) :
    AllReal (Host.divf (F := Ideal) a b) := fun i => by
  obtain ⟨r, hr⟩ := ha i
  obtain ⟨t, ht0, ht⟩ := hb i
  refine ⟨r * (1 / t), ?_⟩
  show Ideal.div (a i) (b i) = _
  rw [hr, ht, Ideal.div_coe ht0, EReal.coe_mul]

/-- The entrywise reciprocal square root of an array of positive reals is an array of positive reals. -/
theorem rsqrt_allPos {a : FVec Ideal S φ} (ha : AllPos a) : AllPos (Host.rsqrt (F := Ideal) a) := fun i => by
  obtain ⟨r, hr0, hr⟩ := ha i
  refine ⟨(Real.sqrt r)⁻¹, inv_pos.mpr (Real.sqrt_pos.mpr hr0), ?_⟩
  show Ideal.rsqrt (a i) = _
  rw [hr, Ideal.rsqrt_coe, if_neg (not_lt.mpr hr0.le), if_neg hr0.ne']

/-- The entrywise reciprocal square root of an array of positive reals is an array of reals. -/
theorem rsqrt_allReal {a : FVec Ideal S φ} (ha : AllPos a) : AllReal (Host.rsqrt (F := Ideal) a) :=
  (rsqrt_allPos ha).allReal

/-- An array of reals that are at least zero plus an array of positive reals is an array of positive reals. -/
theorem addf_allPos_of_nonneg {a b : FVec Ideal S φ} (ha : ∀ i, ∃ r : ℝ, 0 ≤ r ∧ a i = (r : EReal)) (hb : AllPos b) :
    AllPos (addf a b) := fun i => by
  obtain ⟨r, hr0, hr⟩ := ha i
  obtain ⟨t, ht0, ht⟩ := hb i
  exact ⟨r + t, by linarith, by show a i + b i = _; rw [hr, ht, EReal.coe_add]⟩

end Pointwise

/-! ## Re-indexings: every entry of the result is an entry of the operand -/

section Layout
variable {S T : Shape}

/-- Reading an array of reals through any map of indices gives an array of reals. -/
theorem comp_allReal {a : S.Idx → EReal} (ha : AllReal a) (f : T.Idx → S.Idx) : AllReal (fun j => a (f j)) :=
  fun j => ha (f j)

/-- Repeating an array of reals along new axes gives an array of reals. -/
theorem broadcastInDim_allReal (dims : Fin S.rank → Fin T.rank) (h : S.BroadcastsInDim T dims) {a : S.Idx → EReal}
    (ha : AllReal a) : AllReal (broadcastInDim T dims h a) := fun _ => ha _

/-- Repeating an array of positive reals along new axes gives an array of positive reals. -/
theorem broadcastInDim_allPos (dims : Fin S.rank → Fin T.rank) (h : S.BroadcastsInDim T dims) {a : S.Idx → EReal}
    (ha : AllPos a) : AllPos (broadcastInDim T dims h a) := fun _ => ha _

/-- Repeating an array of nonzero reals along new axes gives an array of nonzero reals. -/
theorem broadcastInDim_allNonzero (dims : Fin S.rank → Fin T.rank) (h : S.BroadcastsInDim T dims) {a : S.Idx → EReal}
    (ha : AllNonzero a) : AllNonzero (broadcastInDim T dims h a) := fun _ => ha _

/-- The same entries of an array of reals under another shape are an array of reals. -/
theorem shapeCast_allReal (h : S.ShapeCasts T) {a : S.Idx → EReal} (ha : AllReal a) : AllReal (shapeCast T a h) :=
  fun _ => ha _

/-- A block cut out of an array of reals is an array of reals. -/
theorem extractStridedSlice_allReal (off : Fin S.rank → Nat) (h : S.Slices off T) {a : S.Idx → EReal} (ha : AllReal a) :
    AllReal (extractStridedSlice T off a h) := fun _ => ha _

/-- Rows, or any slices, taken out of an array of reals by an index array are an array of reals, whatever the
    indices: each entry taken is an entry of the operand. -/
theorem gather_allReal {SI : Shape} {w : Nat} (d : GatherDims S SI T) (idx : IVec SI w) {a : S.Idx → EReal}
    (ha : AllReal a) : AllReal (Host.gather d a idx) := fun _ => ha _

end Layout

/-! ## Constants -/

/-- A constant array whose bit pattern denotes a real number is an array of reals. -/
theorem constant_allReal (S : Shape) (φ : FTy) (w : BitVec φ.bits) {r : ℝ} (h : Ideal.ofBits φ w = (r : EReal)) :
    AllReal (constant (F := Ideal) S φ w) := fun _ => ⟨r, h⟩

/-- A constant array whose bit pattern denotes a positive real number is an array of positive reals. -/
theorem constant_allPos (S : Shape) (φ : FTy) (w : BitVec φ.bits) {r : ℝ} (hr : 0 < r) (h : Ideal.ofBits φ w = (r : EReal)) :
    AllPos (constant (F := Ideal) S φ w) := fun _ => ⟨r, hr, h⟩

/-- The single-precision pattern of `+0.0` denotes `0`. -/
theorem ofBits_zero : Ideal.ofBits .f32 0x00000000#32 = ((0 : ℝ) : EReal) := by
  simp [Ideal.ofBits, Ideal.ieee]

/-- The single-precision pattern of `1.0` (biased exponent 127, significand 1) denotes `1`. -/
theorem ofBits_one : Ideal.ofBits .f32 0x3F800000#32 = ((1 : ℝ) : EReal) := by
  simp [Ideal.ofBits, Ideal.ieee, -EReal.coe_mul]; norm_num

/-- The single-precision pattern `0x47435000` (biased exponent 142, significand `12800000 / 2^23`) denotes
    `12800000 / 2^8 = 50000`. -/
theorem ofBits_50000 : Ideal.ofBits .f32 0x47435000#32 = ((50000 : ℝ) : EReal) := by
  simp [Ideal.ofBits, Ideal.ieee, -EReal.coe_mul]; norm_num

/-- The single-precision pattern `0x3727C5AC` (biased exponent 110, significand `10995116 / 2^23`), the float
    nearest `10^-5`, denotes the rational `10995116 / 2^40`. -/
theorem ofBits_eps : Ideal.ofBits .f32 0x3727C5AC#32 = ((10995116 / 2 ^ 40 : ℝ) : EReal) := by
  simp [Ideal.ofBits, Ideal.ieee, -EReal.coe_mul]; norm_num

/-- That rational is positive. -/
theorem eps_pos : (0 : ℝ) < 10995116 / 2 ^ 40 := by norm_num

/-! ## Finite sums: a sum along axes, a matrix product, an accumulation of updates -/

/-- A real number plus a finite sum of real numbers, taken in the extended reals, is a real number. -/
theorem exists_real_add_sum {ι : Type} (s : Finset ι) (c : EReal) (f : ι → EReal) (hc : ∃ r : ℝ, c = (r : EReal))
    (h : ∀ k ∈ s, ∃ r : ℝ, f k = (r : EReal)) : ∃ r : ℝ, c + ∑ k ∈ s, f k = (r : EReal) := by
  obtain ⟨r0, hr0⟩ := hc
  obtain ⟨r, hr⟩ := exists_real_sum s f h
  exact ⟨r0 + r, by rw [hr0, hr, EReal.coe_add]⟩

/-- The sum of an array of reals along any set of axes, started from a real initial value, is an array of reals:
    each entry is the initial value plus a finite sum of entries of the operand. -/
theorem reduceAdd_allReal {S T V : Shape} {φ : FTy} {axes : List (Fin S.rank)} {x : FVec Ideal S φ} {init : V.Idx → Ideal φ}
    (hx : AllReal x) (hinit : AllReal init) (h : S.ReducesTo axes T) (hv : 0 < V.numel) :
    AllReal (Host.reduceAdd (F := Ideal) x init h hv) := fun j => by
  show ∃ t : ℝ, Ideal.hostReduceAdd h x (init (Shape.Idx.first hv)) j = (t : EReal)
  unfold Ideal.hostReduceAdd
  exact exists_real_add_sum _ _ _ (hinit _) fun k _ => hx k

/-- The same for the sum a tiled program takes along axes of a block: each entry is a finite sum of entries of the
    operand. -/
theorem multiReduction_add_allReal {S T : Shape} {φ : FTy} {axes : List (Fin S.rank)} {x : FVec Ideal S φ} (hx : AllReal x)
    (acc : BitVec φ.bits) (h : S.Reduces axes T) (hφ : FKind.Formats φ) (hacc : acc = FKind.add.neutral φ hφ) :
    AllReal (multiReduction .add axes T x acc h hφ hacc) := fun j => by
  show ∃ t : ℝ, Ideal.reduceAdd h x j = (t : EReal)
  unfold Ideal.reduceAdd
  exact exists_real_sum _ _ fun k _ => hx k

/-- A product of two arrays of reals contracted over any axes is an array of reals: each entry is a finite sum of
    products of an entry of the one with an entry of the other. -/
theorem dotGeneral_allReal {SL SR SO : Shape} {φ₁ φ₂ : FTy} (d : DotDims SL SR SO) (prec : Option ContractPrecision)
    {l : FVec Ideal SL φ₁} {r : FVec Ideal SR φ₂} (hl : AllReal l) (hr : AllReal r) :
    AllReal (Host.dotGeneral (F := Ideal) d prec l r) := fun j => by
  show ∃ t : ℝ, FloatOps.dotGeneral d prec .single l r j = (t : EReal)
  rw [Ideal.dotGeneral_apply]
  refine exists_real_sum _ _ fun k _ => ?_
  obtain ⟨a, ha⟩ := hl (d.lhsIdx j k)
  obtain ⟨b, hb⟩ := hr (d.rhsIdx j k)
  exact ⟨a * b, by rw [ha, hb, EReal.coe_mul]⟩

/-- The same product added to an array of reals, as a tiled program accumulates it, is an array of reals. -/
theorem matmul_allReal {SL SR SO : Shape} {φ₁ φ₂ : FTy} (d : DotDims SL SR SO) (prec : Option ContractPrecision)
    {l : FVec Ideal SL φ₁} {r : FVec Ideal SR φ₂} {acc : FVec Ideal SO .f32} (hl : AllReal l) (hr : AllReal r)
    (hacc : AllReal acc) : AllReal (matmul (F := Ideal) d prec l r acc) := fun j => by
  show ∃ t : ℝ, FloatOps.matmul d prec l r acc j = (t : EReal)
  rw [Ideal.matmul_apply]
  refine exists_real_add_sum _ _ _ (hacc j) fun k _ => ?_
  obtain ⟨a, ha⟩ := hl (d.lhsIdx j k)
  obtain ⟨b, hb⟩ := hr (d.rhsIdx j k)
  exact ⟨a * b, by rw [ha, hb, EReal.coe_mul]⟩

/-- Accumulating an array of real updates into an array of reals at the places an index array names gives an array
    of reals, whatever the indices: each entry is the operand's entry plus the finite sum of the updates that
    land on it. -/
theorem scatterAdd_allReal {S SI SU : Shape} {φ : FTy} {w : Nat} (d : ScatterDims S SI SU) (idx : IVec SI w)
    {x : FVec Ideal S φ} {u : FVec Ideal SU φ} (hx : AllReal x) (hu : AllReal u) :
    AllReal (Host.scatterAdd (F := Ideal) d x idx u) := fun i => by
  show ∃ t : ℝ, Ideal.hostScatterAdd d x idx u i = (t : EReal)
  unfold Ideal.hostScatterAdd
  exact exists_real_add_sum _ _ _ (hx i) fun k _ => hu k

/-! ## Integers read as floats, and a choice whose condition is known -/

/-- A signed integer array read as floats is an array of reals: each entry is the integer itself. -/
theorem sitofp_allReal {S : Shape} {w : Nat} (φ : FTy) (x : IVec S w) : AllReal (sitofp (F := Ideal) φ x) :=
  fun i => ⟨((x i).toInt : ℝ), rfl⟩

/-- An unsigned integer array read as floats is an array of reals: each entry is the integer itself. -/
theorem uitofp_allReal {S : Shape} {w : Nat} (φ : FTy) (x : IVec S w) : AllReal (uitofp (F := Ideal) φ x) :=
  fun i => ⟨((x i).toNat : ℝ), rfl⟩

/-- The entrywise negative of an array of reals is an array of reals. -/
theorem negf_allReal {S : Shape} {φ : FTy} {a : FVec Ideal S φ} (ha : AllReal a) : AllReal (negf a) := fun i => by
  obtain ⟨r, hr⟩ := ha i
  exact ⟨-r, by show -(a i) = _; rw [hr, EReal.coe_neg]⟩

/-- Where the condition holds at every entry, the choice is its first array. -/
theorem select_of_true {S : Shape} {α : Type} {p : IVec S 1} (hp : ∀ i, p i = 1) (a b : S.Idx → α) : select p a b = a :=
  funext fun i => show (if p i = 1 then a i else b i) = a i from if_pos (hp i)

/-- Where the condition fails at every entry, the choice is its second array. -/
theorem select_of_false {S : Shape} {α : Type} {p : IVec S 1} (hp : ∀ i, p i ≠ 1) (a b : S.Idx → α) : select p a b = b :=
  funext fun i => show (if p i = 1 then a i else b i) = b i from if_neg (hp i)

/-- So such a choice is an array of reals as soon as its first array is, whatever the second holds. -/
theorem select_allReal_of_true {S : Shape} {p : IVec S 1} (hp : ∀ i, p i = 1) {a : S.Idx → EReal} (b : S.Idx → EReal)
    (ha : AllReal a) : AllReal (select p a b) := by
  rw [select_of_true hp]; exact ha

/-- The comparison `x > y` answers `1` at an entry where `y` is below `x`. -/
theorem cmpf_ogt_eq_one {S : Shape} {φ : FTy} {x y : FVec Ideal S φ} {i : S.Idx} (h : y i < x i) :
    cmpf (F := Ideal) .ogt x y i = 1 := by
  show BitVec.ofBool (decide (y i < x i)) = 1
  simp [h]

/-! ## Signs: arrays of reals that are at least zero -/

/-- Every entry of the array is a real number that is at least zero. -/
def AllNonneg {S : Shape} (a : S.Idx → EReal) : Prop := ∀ i, ∃ r : ℝ, 0 ≤ r ∧ a i = (r : EReal)

/-- Positive reals are at least zero. -/
theorem AllPos.allNonneg {S : Shape} {a : S.Idx → EReal} (h : AllPos a) : AllNonneg a := fun i => by
  obtain ⟨r, hr, e⟩ := h i
  exact ⟨r, hr.le, e⟩

/-- Reals that are at least zero are reals. -/
theorem AllNonneg.allReal {S : Shape} {a : S.Idx → EReal} (h : AllNonneg a) : AllReal a := fun i => by
  obtain ⟨r, _, e⟩ := h i
  exact ⟨r, e⟩

/-- A finite sum of extended reals each of which is a real at least zero is a real at least zero. -/
theorem exists_nonneg_sum {ι : Type} (s : Finset ι) (f : ι → EReal) (h : ∀ k ∈ s, ∃ r : ℝ, 0 ≤ r ∧ f k = (r : EReal)) :
    ∃ r : ℝ, 0 ≤ r ∧ ∑ k ∈ s, f k = (r : EReal) := by
  classical
  choose! g hg0 hg using h
  exact ⟨∑ k ∈ s, g k, Finset.sum_nonneg hg0, by rw [coe_finset_sum]; exact Finset.sum_congr rfl hg⟩

/-- A real at least zero plus such a sum is a real at least zero. -/
theorem exists_nonneg_add_sum {ι : Type} (s : Finset ι) (c : EReal) (f : ι → EReal)
    (hc : ∃ r : ℝ, 0 ≤ r ∧ c = (r : EReal)) (h : ∀ k ∈ s, ∃ r : ℝ, 0 ≤ r ∧ f k = (r : EReal)) :
    ∃ r : ℝ, 0 ≤ r ∧ c + ∑ k ∈ s, f k = (r : EReal) := by
  obtain ⟨r0, h0, hr0⟩ := hc
  obtain ⟨r, h1, hr⟩ := exists_nonneg_sum s f h
  exact ⟨r0 + r, add_nonneg h0 h1, by rw [hr0, hr, EReal.coe_add]⟩

section Signs
variable {S : Shape} {φ : FTy}

/-- A constant array whose bit pattern denotes a real at least zero is an array of such reals. -/
theorem constant_allNonneg (S : Shape) (φ : FTy) (w : BitVec φ.bits) {r : ℝ} (hr : 0 ≤ r)
    (h : Ideal.ofBits φ w = (r : EReal)) : AllNonneg (constant (F := Ideal) S φ w) := fun _ => ⟨r, hr, h⟩

/-- Repeating an array of reals at least zero along new axes gives an array of reals at least zero. -/
theorem broadcastInDim_allNonneg {T : Shape} (dims : Fin S.rank → Fin T.rank) (h : S.BroadcastsInDim T dims)
    {a : S.Idx → EReal} (ha : AllNonneg a) : AllNonneg (broadcastInDim T dims h a) := fun _ => ha _

/-- The sum of two arrays of reals at least zero is an array of reals at least zero. -/
theorem addf_allNonneg {a b : FVec Ideal S φ} (ha : AllNonneg a) (hb : AllNonneg b) : AllNonneg (addf a b) := fun i => by
  obtain ⟨r, hr0, hr⟩ := ha i
  obtain ⟨t, ht0, ht⟩ := hb i
  exact ⟨r + t, add_nonneg hr0 ht0, by show a i + b i = _; rw [hr, ht, EReal.coe_add]⟩

/-- The product of two arrays of reals at least zero is an array of reals at least zero. -/
theorem mulf_allNonneg {a b : FVec Ideal S φ} (ha : AllNonneg a) (hb : AllNonneg b) : AllNonneg (mulf a b) := fun i => by
  obtain ⟨r, hr0, hr⟩ := ha i
  obtain ⟨t, ht0, ht⟩ := hb i
  exact ⟨r * t, mul_nonneg hr0 ht0, by show a i * b i = _; rw [hr, ht, EReal.coe_mul]⟩

/-- The entrywise square of an array of reals is an array of reals at least zero. -/
theorem mulf_self_allNonneg {a : FVec Ideal S φ} (ha : AllReal a) : AllNonneg (mulf a a) := fun i => by
  obtain ⟨r, hr⟩ := ha i
  exact ⟨r * r, mul_self_nonneg r, by show a i * a i = _; rw [hr, EReal.coe_mul]⟩

/-- The entrywise maximum of an array of reals with an array of reals at least zero is at least zero: the rectifier
    `max x 0` among them. -/
theorem maximumf_allNonneg_right {a b : FVec Ideal S φ} (ha : AllReal a) (hb : AllNonneg b) :
    AllNonneg (maximumf a b) := fun i => by
  show ∃ r : ℝ, 0 ≤ r ∧ max (a i) (b i) = (r : EReal)
  obtain ⟨r, hr⟩ := ha i
  obtain ⟨t, ht0, ht⟩ := hb i
  refine ⟨max r t, le_max_of_le_right ht0, ?_⟩
  rw [hr, ht]
  rcases le_total r t with h | h
  · rw [max_eq_right h, max_eq_right (EReal.coe_le_coe_iff.mpr h)]
  · rw [max_eq_left h, max_eq_left (EReal.coe_le_coe_iff.mpr h)]

/-- The quotient of an array of reals at least zero by an array of positive reals is an array of reals at least
    zero. -/
theorem divf_allNonneg {a b : FVec Ideal S φ} (ha : AllNonneg a) (hb : AllPos b) :
    AllNonneg (Host.divf (F := Ideal) a b) := fun i => by
  obtain ⟨r, hr0, hr⟩ := ha i
  obtain ⟨t, ht0, ht⟩ := hb i
  refine ⟨r * (1 / t), mul_nonneg hr0 (one_div_pos.mpr ht0).le, ?_⟩
  show Ideal.div (a i) (b i) = _
  rw [hr, ht, Ideal.div_coe ht0.ne', EReal.coe_mul]

/-- The sum of an array of reals at least zero along any axes, started from a real at least zero, is an array of
    reals at least zero. -/
theorem reduceAdd_allNonneg {T V : Shape} {axes : List (Fin S.rank)} {x : FVec Ideal S φ} {init : V.Idx → Ideal φ}
    (hx : AllNonneg x) (hinit : AllNonneg init) (h : S.ReducesTo axes T) (hv : 0 < V.numel) :
    AllNonneg (Host.reduceAdd (F := Ideal) x init h hv) := fun j => by
  show ∃ t : ℝ, 0 ≤ t ∧ Ideal.hostReduceAdd h x (init (Shape.Idx.first hv)) j = (t : EReal)
  unfold Ideal.hostReduceAdd
  exact exists_nonneg_add_sum _ _ _ (hinit _) fun k _ => hx k

/-- Accumulating updates that are reals at least zero into an array of reals at least zero gives an array of reals
    at least zero, whatever the indices: a count of how many updates land on each entry among them. -/
theorem scatterAdd_allNonneg {SI SU : Shape} {w : Nat} (d : ScatterDims S SI SU) (idx : IVec SI w)
    {x : FVec Ideal S φ} {u : FVec Ideal SU φ} (hx : AllNonneg x) (hu : AllNonneg u) :
    AllNonneg (Host.scatterAdd (F := Ideal) d x idx u) := fun i => by
  show ∃ t : ℝ, 0 ≤ t ∧ Ideal.hostScatterAdd d x idx u i = (t : EReal)
  unfold Ideal.hostScatterAdd
  exact exists_nonneg_add_sum _ _ _ (hx i) fun k _ => hu k

end Signs

end Cert.LibReal

end
-- ==== Proof.LibLayout.lean ====
/-
  Two ways to write a vector as a matrix with one unit axis. A vector of n entries as a 1 x n row is the same array
  whether it is reshaped or broadcast along axis 1: entry (0, j) is entry j. As an n x 1 column it is the same whether
  reshaped or broadcast along axis 0: entry (i, 0) is entry i. In each case the row-major position of the matrix
  entry is the vector's index, because the other axis has length 1.
-/
import Idealize.ShloMosaic.Lib.Pipeline.Value
import Idealize.ShloMosaic.Lib.ValueIdx

namespace Cert.Proof.Layout

open Idealize.ShloMosaic Idealize.ShloMosaic.ValueIdx

variable {α : Type}

/-- A vector of n entries as a 1 x n row: the reshape is the broadcast along axis 1. -/
theorem reshape_row_eq_broadcastInDim {n : Nat} (x : (⟨1, ![n]⟩ : Shape).Idx → α)
    (h : (⟨1, ![n]⟩ : Shape).ShapeCasts ⟨2, ![1, n]⟩)
    (hd : (⟨1, ![n]⟩ : Shape).BroadcastsInDim ⟨2, ![1, n]⟩ ![1]) :
    shapeCast ⟨2, ![1, n]⟩ x h = broadcastInDim ⟨2, ![1, n]⟩ ![1] hd x := by
  funext i
  have h0 : (i 0).val < 1 := (i 0).isLt
  have h1 : (i 1).val < n := (i 1).isLt
  have e2 := shapeCast_apply x h i (ix1 (i 1 : Fin n)) (by
    rw [Shape.rowMajor_val_two, Shape.rowMajor_val_one]
    show (i 1).val = (i 0).val * n + (i 1).val
    have : (i 0).val = 0 := by omega
    rw [this]; omega)
  have e3 := broadcastInDim_apply ![1] hd x i (ix1 (i 1 : Fin n)) (by
    intro a
    match a with
    | ⟨0, _⟩ =>
      show (i 1).val = if n = 1 then 0 else (i 1).val
      split
      · omega
      · rfl)
  exact e2.trans e3.symm

/-- A vector of n entries as an n x 1 column: the reshape is the broadcast along axis 0. -/
theorem reshape_col_eq_broadcastInDim {n : Nat} (x : (⟨1, ![n]⟩ : Shape).Idx → α)
    (h : (⟨1, ![n]⟩ : Shape).ShapeCasts ⟨2, ![n, 1]⟩)
    (hd : (⟨1, ![n]⟩ : Shape).BroadcastsInDim ⟨2, ![n, 1]⟩ ![0]) :
    shapeCast ⟨2, ![n, 1]⟩ x h = broadcastInDim ⟨2, ![n, 1]⟩ ![0] hd x := by
  funext i
  have h0 : (i 0).val < n := (i 0).isLt
  have h1 : (i 1).val < 1 := (i 1).isLt
  have e2 := shapeCast_apply x h i (ix1 (i 0 : Fin n)) (by
    rw [Shape.rowMajor_val_two, Shape.rowMajor_val_one]
    show (i 0).val = (i 0).val * 1 + (i 1).val
    omega)
  have e3 := broadcastInDim_apply ![0] hd x i (ix1 (i 0 : Fin n)) (by
    intro a
    match a with
    | ⟨0, _⟩ =>
      show (i 0).val = if n = 1 then 0 else (i 0).val
      split
      · omega
      · rfl)
  exact e2.trans e3.symm

end Cert.Proof.Layout
-- ==== Proof.LibSageLayer.lean ====
/-
  ONE GRAPH-CONVOLUTION LAYER (mean aggregation), IN TWO ARRANGEMENTS, AT THE EXTENDED REALS.

  A node i has a row x(i, ·) of K features, a row agg(i, ·) of the summed features of its in-neighbours and a
  count d(i) ≥ 1 (the in-degree, raised to one where it is zero).  The layer sends node i to the row

      j ↦ Σ_k mean(i, k) · wl(k, j)  +  Σ_k x(i, k) · wr(k, j)  +  b(j),        mean(i, k) = agg(i, k) / d(i),

  optionally followed by the rectifier max(·, 0).

  The tiled program forms mean as agg(i, k) · (1 / d(i)), adds the two products first and the bias last; the array
  program divides agg(i, k) by d(i), adds the bias to the first product and the second product last.  Since d(i) is a
  nonzero real, a / d(i) = a · (1 / d(i)) for EVERY extended real a (infinite ones included), and the three summands
  are only re-associated: no distributive law is used, so nothing is asked of x, agg or the weights.
-/
import proofs.«167262_j17119739641947_1_alg».proof.Proof.LibBlocks
import proofs.«167262_j17119739641947_1_alg».proof.Proof.LibDenseLayer
import proofs.«167262_j17119739641947_1_alg».proof.Proof.LibReal
import proofs.«167262_j17119739641947_1_alg».proof.Proof.LibLayout

noncomputable section

open scoped BigOperators

namespace Cert.SageLayer

open Idealize.ShloMosaic Idealize.ShloMosaic.ValueIdx Cert.LibReal

variable {n N K M : Nat}

/-- Entry (i, j) of the layer as the tiled program arranges it: both products, then the bias row's entry j. -/
def entry (mean x : FVec Ideal ⟨2, ![N, K]⟩ .f32) (wl wr : FVec Ideal ⟨2, ![K, M]⟩ .f32) (b : FVec Ideal ⟨2, ![1, M]⟩ .f32)
    (i : Fin N) (j : Fin M) : EReal :=
  (∑ k : Fin K, mean (ix2 i k) * wl (ix2 k j) + ∑ k : Fin K, x (ix2 i k) * wr (ix2 k j)) + b (ix2 (0 : Fin 1) j)

/-- The layer without rectifier, as one array. -/
def linear (mean x : FVec Ideal ⟨2, ![N, K]⟩ .f32) (wl wr : FVec Ideal ⟨2, ![K, M]⟩ .f32) (b : FVec Ideal ⟨2, ![1, M]⟩ .f32) :
    FVec Ideal ⟨2, ![N, M]⟩ .f32 := fun i => entry mean x wl wr b (i 0) (i 1)

/-- The layer with rectifier, as one array. -/
def hidden (mean x : FVec Ideal ⟨2, ![N, K]⟩ .f32) (wl wr : FVec Ideal ⟨2, ![K, M]⟩ .f32) (b : FVec Ideal ⟨2, ![1, M]⟩ .f32) :
    FVec Ideal ⟨2, ![N, M]⟩ .f32 := fun i => max (entry mean x wl wr b (i 0) (i 1)) (Ideal.ofBits .f32 0x00000000#32)

/-! ## A block of rows: the tiled body at one entry -/

/-- The body without rectifier on a block of n rows, at entry (p, q): the layer's entry on the block's rows. -/
theorem linear_body_entry
    (dk : DotDims ⟨2, ![n, K]⟩ ⟨2, ![K, M]⟩ ⟨2, ![n, M]⟩) (hdk : dk = DotDims.plain n K M)
    (hlt : FTy.bf16.bits < FTy.f32.bits)
    (hc1 : (⟨2, ![1, M]⟩ : Shape).ShapeCasts ⟨2, ![1, M]⟩) (hb : (⟨2, ![1, M]⟩ : Shape).Broadcasts ⟨2, ![n, M]⟩)
    (x0 x1 : FVec Ideal ⟨2, ![n, K]⟩ .f32) (w0 w1 : FVec Ideal ⟨2, ![K, M]⟩ .f32) (c : FVec Ideal ⟨2, ![1, M]⟩ .f32)
    (p : Fin n) (q : Fin M) :
    addf (addf (matmul dk none (truncf .bf16 x0 hlt) (truncf .bf16 w0 hlt) (constant ⟨2, ![n, M]⟩ .f32 0x00000000#32))
          (matmul dk none (truncf .bf16 x1 hlt) (truncf .bf16 w1 hlt) (constant ⟨2, ![n, M]⟩ .f32 0x00000000#32)))
        (broadcastTo ⟨2, ![n, M]⟩ (shapeCast ⟨2, ![1, M]⟩ c hc1) hb) (ix2 p q)
      = entry x0 x1 w0 w1 c p q := by
  rw [addf_apply, addf_apply, Cert.LibDenseLayer.bias_block_entry hc1 hb c p q]
  show (FloatOps.matmul dk none _ _ _ _ + FloatOps.matmul dk none _ _ _ _) + _ = _
  rw [Cert.LibBlocks.matmul_plain_apply dk hdk, Cert.LibBlocks.matmul_plain_apply dk hdk]
  rfl

/-- The body with rectifier on a block of n rows, at entry (p, q). -/
theorem hidden_body_entry
    (dk : DotDims ⟨2, ![n, K]⟩ ⟨2, ![K, M]⟩ ⟨2, ![n, M]⟩) (hdk : dk = DotDims.plain n K M)
    (hlt : FTy.bf16.bits < FTy.f32.bits)
    (hc1 : (⟨2, ![1, M]⟩ : Shape).ShapeCasts ⟨2, ![1, M]⟩) (hb : (⟨2, ![1, M]⟩ : Shape).Broadcasts ⟨2, ![n, M]⟩)
    (x0 x1 : FVec Ideal ⟨2, ![n, K]⟩ .f32) (w0 w1 : FVec Ideal ⟨2, ![K, M]⟩ .f32) (c : FVec Ideal ⟨2, ![1, M]⟩ .f32)
    (p : Fin n) (q : Fin M) :
    maximumf (addf (addf (matmul dk none (truncf .bf16 x0 hlt) (truncf .bf16 w0 hlt) (constant ⟨2, ![n, M]⟩ .f32 0x00000000#32))
          (matmul dk none (truncf .bf16 x1 hlt) (truncf .bf16 w1 hlt) (constant ⟨2, ![n, M]⟩ .f32 0x00000000#32)))
        (broadcastTo ⟨2, ![n, M]⟩ (shapeCast ⟨2, ![1, M]⟩ c hc1) hb))
        (broadcast ⟨2, ![n, M]⟩ (Scalar.ofBits (F := Ideal) .f32 0x00000000#32)) (ix2 p q)
      = max (entry x0 x1 w0 w1 c p q) (Ideal.ofBits .f32 0x00000000#32) := by
  rw [maximumf_apply, linear_body_entry dk hdk hlt hc1 hb x0 x1 w0 w1 c p q]
  rfl

/-- The layer's entry reads only row i of its two row arrays: equal rows give equal entries. -/
theorem entry_congr_rows (mean x : FVec Ideal ⟨2, ![n, K]⟩ .f32) (mean' x' : FVec Ideal ⟨2, ![N, K]⟩ .f32)
    (wl wr : FVec Ideal ⟨2, ![K, M]⟩ .f32) (b : FVec Ideal ⟨2, ![1, M]⟩ .f32) (p : Fin n) (r : Fin N)
    (hm : ∀ k : Fin K, mean (ix2 p k) = mean' (ix2 r k)) (hx : ∀ k : Fin K, x (ix2 p k) = x' (ix2 r k)) (q : Fin M) :
    entry mean x wl wr b p q = entry mean' x' wl wr b r q := by
  unfold entry
  have e1 : ∀ k : Fin K, mean (ix2 p k) * wl (ix2 k q) = mean' (ix2 r k) * wl (ix2 k q) := fun k => by rw [hm k]
  have e2 : ∀ k : Fin K, x (ix2 p k) * wr (ix2 k q) = x' (ix2 r k) * wr (ix2 k q) := fun k => by rw [hx k]
  rw [Finset.sum_congr rfl fun k _ => e1 k, Finset.sum_congr rfl fun k _ => e2 k]

/-! ## The two arrangements agree -/

/-- The reciprocal of the count, kept as a column and repeated along the rows, at entry (i, k): 1 / d(i). -/
theorem recip_col_entry (d : FVec Ideal ⟨1, ![N]⟩ .f32)
    (h1 : (⟨2, ![N, 1]⟩ : Shape).BroadcastsInDim ⟨2, ![N, K]⟩ ![0, 1])
    (h5 : (⟨1, ![N]⟩ : Shape).ShapeCasts ⟨2, ![N, 1]⟩) (h2 : (⟨1, ![N]⟩ : Shape).BroadcastsInDim ⟨2, ![N, 1]⟩ ![0])
    (i : Fin N) (k : Fin K) :
    broadcastInDim ⟨2, ![N, K]⟩ ![0, 1] h1 (shapeCast ⟨2, ![N, 1]⟩ d h5) (ix2 i k) = d (ix1 i) := by
  rw [Cert.Proof.Layout.reshape_col_eq_broadcastInDim d h5 h2]
  rw [broadcastInDim_apply ![0, 1] h1 _ (ix2 i k) (ix2 i (0 : Fin 1)) (fun a => by
    match a with
    | ⟨0, _⟩ =>
      show i.val = if N = 1 then 0 else i.val
      have := i.isLt
      split_ifs <;> omega
    | ⟨1, _⟩ => rfl)]
  exact broadcastInDim_apply ![0] h2 d (ix2 i (0 : Fin 1)) (ix1 i) (fun a => by
    match a with
    | ⟨0, _⟩ =>
      show i.val = if N = 1 then 0 else i.val
      have := i.isLt
      split_ifs <;> omega)

/-- The count, made a column and repeated along the rows, at entry (i, k): d(i). -/
theorem count_col_entry (d : FVec Ideal ⟨1, ![N]⟩ .f32)
    (h1 : (⟨2, ![N, 1]⟩ : Shape).BroadcastsInDim ⟨2, ![N, K]⟩ ![0, 1])
    (h2 : (⟨1, ![N]⟩ : Shape).BroadcastsInDim ⟨2, ![N, 1]⟩ ![0])
    (i : Fin N) (k : Fin K) :
    broadcastInDim ⟨2, ![N, K]⟩ ![0, 1] h1 (broadcastInDim ⟨2, ![N, 1]⟩ ![0] h2 d) (ix2 i k) = d (ix1 i) := by
  rw [broadcastInDim_apply ![0, 1] h1 _ (ix2 i k) (ix2 i (0 : Fin 1)) (fun a => by
    match a with
    | ⟨0, _⟩ =>
      show i.val = if N = 1 then 0 else i.val
      have := i.isLt
      split_ifs <;> omega
    | ⟨1, _⟩ => rfl)]
  exact broadcastInDim_apply ![0] h2 d (ix2 i (0 : Fin 1)) (ix1 i) (fun a => by
    match a with
    | ⟨0, _⟩ =>
      show i.val = if N = 1 then 0 else i.val
      have := i.isLt
      split_ifs <;> omega)

/-- Multiplying by the reciprocal of a nonzero real count is dividing by it, for every extended real. -/
theorem mul_recip_eq_div (a : EReal) {t : ℝ} (ht : t ≠ 0) :
    a * Ideal.div (Ideal.ofBits .f32 0x3F800000#32) (t : EReal) = Ideal.div a (t : EReal) := by
  rw [Ideal.div_coe ht, Ideal.div_coe ht, ofBits_one, ← EReal.coe_mul, one_mul]

/-- The mean as the tiled program forms it (agg times the reciprocal column) is the mean as the array program forms it
    (agg divided by the count column), when every count is a nonzero real. -/
theorem mean_eq (agg : FVec Ideal ⟨2, ![N, K]⟩ .f32) (d : FVec Ideal ⟨1, ![N]⟩ .f32) (hd : AllNonzero d)
    (h1 : (⟨2, ![N, 1]⟩ : Shape).BroadcastsInDim ⟨2, ![N, K]⟩ ![0, 1])
    (h2 : (⟨1, ![N]⟩ : Shape).BroadcastsInDim ⟨2, ![N, 1]⟩ ![0])
    (h5 : (⟨1, ![N]⟩ : Shape).ShapeCasts ⟨2, ![N, 1]⟩)
    (h7 : (⟨0, ![]⟩ : Shape).BroadcastsInDim ⟨1, ![N]⟩ ![]) :
    mulf agg (broadcastInDim ⟨2, ![N, K]⟩ ![0, 1] h1 (shapeCast ⟨2, ![N, 1]⟩
        (Host.divf (F := Ideal) (broadcastInDim ⟨1, ![N]⟩ ![] h7 (constant (F := Ideal) ⟨0, ![]⟩ .f32 0x3F800000#32)) d) h5))
      = Host.divf (F := Ideal) agg (broadcastInDim ⟨2, ![N, K]⟩ ![0, 1] h1 (broadcastInDim ⟨2, ![N, 1]⟩ ![0] h2 d)) := by
  funext idx
  obtain ⟨i, k, rfl⟩ : ∃ (i : Fin N) (k : Fin K), idx = ix2 i k := ⟨idx 0, idx 1, eq_ix2 idx⟩
  obtain ⟨t, ht, e⟩ := hd (ix1 i)
  rw [mulf_apply, recip_col_entry _ h1 h5 h2 i k]
  show _ = Ideal.div (agg (ix2 i k)) _
  rw [count_col_entry d h1 h2 i k, e]
  show agg (ix2 i k) * Ideal.div (Ideal.ofBits .f32 0x3F800000#32) (d (ix1 i)) = _
  rw [e]
  exact mul_recip_eq_div _ ht

/-- The bias vector as a 1 x M row, repeated down the N rows, at entry (i, j): b(j), read from the reshaped row. -/
theorem bias_entry (bias : FVec Ideal ⟨1, ![M]⟩ .f32)
    (h3 : (⟨2, ![1, M]⟩ : Shape).BroadcastsInDim ⟨2, ![N, M]⟩ ![0, 1])
    (h4 : (⟨1, ![M]⟩ : Shape).BroadcastsInDim ⟨2, ![1, M]⟩ ![1])
    (h6 : (⟨1, ![M]⟩ : Shape).ShapeCasts ⟨2, ![1, M]⟩) (i : Fin N) (j : Fin M) :
    broadcastInDim ⟨2, ![N, M]⟩ ![0, 1] h3 (broadcastInDim ⟨2, ![1, M]⟩ ![1] h4 bias) (ix2 i j)
      = shapeCast ⟨2, ![1, M]⟩ bias h6 (ix2 (0 : Fin 1) j) := by
  rw [Cert.Proof.Layout.reshape_row_eq_broadcastInDim bias h6 h4]
  exact Cert.LibDenseLayer.bias_array_entry h3 _ i j

/-- THE LAYER WITHOUT RECTIFIER: the tiled arrangement (over the mean formed by the reciprocal column and the bias as a
    reshaped row) is the array arrangement. -/
theorem linear_eq_ref
    (dr : DotDims ⟨2, ![N, K]⟩ ⟨2, ![K, M]⟩ ⟨2, ![N, M]⟩) (hdr : dr = DotDims.plain N K M)
    (agg x : FVec Ideal ⟨2, ![N, K]⟩ .f32) (d : FVec Ideal ⟨1, ![N]⟩ .f32) (hd : AllNonzero d)
    (wl wr : FVec Ideal ⟨2, ![K, M]⟩ .f32) (bias : FVec Ideal ⟨1, ![M]⟩ .f32)
    (h1 : (⟨2, ![N, 1]⟩ : Shape).BroadcastsInDim ⟨2, ![N, K]⟩ ![0, 1])
    (h2 : (⟨1, ![N]⟩ : Shape).BroadcastsInDim ⟨2, ![N, 1]⟩ ![0])
    (h3 : (⟨2, ![1, M]⟩ : Shape).BroadcastsInDim ⟨2, ![N, M]⟩ ![0, 1])
    (h4 : (⟨1, ![M]⟩ : Shape).BroadcastsInDim ⟨2, ![1, M]⟩ ![1])
    (h5 : (⟨1, ![N]⟩ : Shape).ShapeCasts ⟨2, ![N, 1]⟩) (h6 : (⟨1, ![M]⟩ : Shape).ShapeCasts ⟨2, ![1, M]⟩)
    (h7 : (⟨0, ![]⟩ : Shape).BroadcastsInDim ⟨1, ![N]⟩ ![]) :
    linear (mulf agg (broadcastInDim ⟨2, ![N, K]⟩ ![0, 1] h1 (shapeCast ⟨2, ![N, 1]⟩
        (Host.divf (F := Ideal) (broadcastInDim ⟨1, ![N]⟩ ![] h7 (constant (F := Ideal) ⟨0, ![]⟩ .f32 0x3F800000#32)) d) h5)))
        x wl wr (shapeCast ⟨2, ![1, M]⟩ bias h6)
      = addf (addf (Host.dotGeneral (F := Ideal) dr none
            (Host.divf (F := Ideal) agg (broadcastInDim ⟨2, ![N, K]⟩ ![0, 1] h1 (broadcastInDim ⟨2, ![N, 1]⟩ ![0] h2 d))) wl)
          (broadcastInDim ⟨2, ![N, M]⟩ ![0, 1] h3 (broadcastInDim ⟨2, ![1, M]⟩ ![1] h4 bias)))
        (Host.dotGeneral (F := Ideal) dr none x wr) := by
  rw [mean_eq agg d hd h1 h2 h5 h7]
  funext idx
  obtain ⟨i, j, rfl⟩ : ∃ (i : Fin N) (j : Fin M), idx = ix2 i j := ⟨idx 0, idx 1, eq_ix2 idx⟩
  rw [addf_apply, addf_apply, bias_entry bias h3 h4 h6 i j]
  show entry _ x wl wr _ i j = (FloatOps.dotGeneral dr none .single _ wl (ix2 i j) + _) + FloatOps.dotGeneral dr none .single x wr (ix2 i j)
  rw [Cert.LibBlocks.dotGeneral_plain_apply dr hdr, Cert.LibBlocks.dotGeneral_plain_apply dr hdr]
  unfold entry
  exact add_right_comm _ _ _

/-- THE LAYER WITH RECTIFIER: the same, under max(·, 0). -/
theorem hidden_eq_ref
    (dr : DotDims ⟨2, ![N, K]⟩ ⟨2, ![K, M]⟩ ⟨2, ![N, M]⟩) (hdr : dr = DotDims.plain N K M)
    (agg x : FVec Ideal ⟨2, ![N, K]⟩ .f32) (d : FVec Ideal ⟨1, ![N]⟩ .f32) (hd : AllNonzero d)
    (wl wr : FVec Ideal ⟨2, ![K, M]⟩ .f32) (bias : FVec Ideal ⟨1, ![M]⟩ .f32)
    (h1 : (⟨2, ![N, 1]⟩ : Shape).BroadcastsInDim ⟨2, ![N, K]⟩ ![0, 1])
    (h2 : (⟨1, ![N]⟩ : Shape).BroadcastsInDim ⟨2, ![N, 1]⟩ ![0])
    (h3 : (⟨2, ![1, M]⟩ : Shape).BroadcastsInDim ⟨2, ![N, M]⟩ ![0, 1])
    (h4 : (⟨1, ![M]⟩ : Shape).BroadcastsInDim ⟨2, ![1, M]⟩ ![1])
    (h5 : (⟨1, ![N]⟩ : Shape).ShapeCasts ⟨2, ![N, 1]⟩) (h6 : (⟨1, ![M]⟩ : Shape).ShapeCasts ⟨2, ![1, M]⟩)
    (h7 : (⟨0, ![]⟩ : Shape).BroadcastsInDim ⟨1, ![N]⟩ ![])
    (hz : (⟨0, ![]⟩ : Shape).BroadcastsInDim ⟨2, ![N, M]⟩ ![]) :
    hidden (mulf agg (broadcastInDim ⟨2, ![N, K]⟩ ![0, 1] h1 (shapeCast ⟨2, ![N, 1]⟩
        (Host.divf (F := Ideal) (broadcastInDim ⟨1, ![N]⟩ ![] h7 (constant (F := Ideal) ⟨0, ![]⟩ .f32 0x3F800000#32)) d) h5)))
        x wl wr (shapeCast ⟨2, ![1, M]⟩ bias h6)
      = maximumf (addf (addf (Host.dotGeneral (F := Ideal) dr none
            (Host.divf (F := Ideal) agg (broadcastInDim ⟨2, ![N, K]⟩ ![0, 1] h1 (broadcastInDim ⟨2, ![N, 1]⟩ ![0] h2 d))) wl)
          (broadcastInDim ⟨2, ![N, M]⟩ ![0, 1] h3 (broadcastInDim ⟨2, ![1, M]⟩ ![1] h4 bias)))
        (Host.dotGeneral (F := Ideal) dr none x wr))
        (broadcastInDim ⟨2, ![N, M]⟩ ![] hz (constant (F := Ideal) ⟨0, ![]⟩ .f32 0x00000000#32)) := by
  rw [← linear_eq_ref dr hdr agg x d hd wl wr bias h1 h2 h3 h4 h5 h6 h7]
  funext idx
  rw [maximumf_apply, broadcastInDim_apply ![] hz (constant (F := Ideal) ⟨0, ![]⟩ .f32 0x00000000#32) idx ix0 (fun a => a.elim0)]
  rfl

end Cert.SageLayer

end
-- ==== Proof.SageBridge.lean ====
/-
  THE THREE STAGES OF THE MODEL AT THE EXTENDED REALS, TILED ARRANGEMENT BESIDE ARRAY ARRANGEMENT.

  * The in-degree count of a node is a sum of ones over the edges that end at it, started from zero, then raised to one:
    a positive real at every node, whatever the edge list holds (count_allPos).
  * A graph-convolution layer with mean aggregation. The tiled program multiplies the summed neighbour rows by the
    column of reciprocals 1 / count, adds the two matrix products and then the bias; the array program divides by the
    count column, adds the bias to the first product and the second product last. A nonzero real count c gives
    a / c = a (1 / c) for every extended real a, and the three summands are only regrouped (layer_eq_ref,
    hidden_layer_eq_ref).
  * The pair head: entry (i, j) is the logistic function of Σ_k pair(i, k) w(k, j) + b(j). The tiled program applies the
    logistic operation; the array program spells 1 / (1 + exp(-z)), which is the logistic function's definition on the
    extended reals (head_body_entry, head_eq_ref).
-/
import proofs.«167262_j17119739641947_1_alg».proof.Proof.LibSageLayer

noncomputable section

open scoped BigOperators

namespace Cert.SageBridge

open Idealize.ShloMosaic Idealize.ShloMosaic.ValueIdx Cert.LibReal

variable {n N K M E w : Nat}

/-- The count of edges ending at each node, raised to one where it is zero: a positive real everywhere. -/
theorem count_allPos (sd : ScatterDims ⟨1, ![N]⟩ ⟨2, ![E, 1]⟩ ⟨1, ![E]⟩) (idx : IVec ⟨2, ![E, 1]⟩ w)
    (hz h7 : (⟨0, ![]⟩ : Shape).BroadcastsInDim ⟨1, ![N]⟩ ![]) (hu : (⟨0, ![]⟩ : Shape).BroadcastsInDim ⟨1, ![E]⟩ ![]) :
    AllPos (maximumf (F := Ideal)
      (Host.scatterAdd (F := Ideal) sd (broadcastInDim ⟨1, ![N]⟩ ![] hz (constant (F := Ideal) ⟨0, ![]⟩ .f32 0x00000000#32)) idx
        (broadcastInDim ⟨1, ![E]⟩ ![] hu (constant (F := Ideal) ⟨0, ![]⟩ .f32 0x3F800000#32)))
      (broadcastInDim ⟨1, ![N]⟩ ![] h7 (constant (F := Ideal) ⟨0, ![]⟩ .f32 0x3F800000#32))) :=
  maximumf_allPos_right
    (scatterAdd_allReal sd idx
      (broadcastInDim_allReal _ hz (constant_allReal _ _ _ ofBits_zero))
      (broadcastInDim_allReal _ hu (constant_allReal _ _ _ ofBits_one)))
    (broadcastInDim_allPos _ h7 (constant_allPos _ _ _ one_pos ofBits_one))

/-- The layer without rectifier: the tiled arrangement, its reciprocal column made by repeating the reciprocals along a
    new axis, is the array arrangement. -/
theorem layer_eq_ref
    (dr : DotDims ⟨2, ![N, K]⟩ ⟨2, ![K, M]⟩ ⟨2, ![N, M]⟩) (hdr : dr = DotDims.plain N K M)
    (agg x : FVec Ideal ⟨2, ![N, K]⟩ .f32) (d : FVec Ideal ⟨1, ![N]⟩ .f32) (hd : AllNonzero d)
    (wl wr : FVec Ideal ⟨2, ![K, M]⟩ .f32) (bias : FVec Ideal ⟨1, ![M]⟩ .f32)
    (h1 : (⟨2, ![N, 1]⟩ : Shape).BroadcastsInDim ⟨2, ![N, K]⟩ ![0, 1])
    (h2 : (⟨1, ![N]⟩ : Shape).BroadcastsInDim ⟨2, ![N, 1]⟩ ![0])
    (h3 : (⟨2, ![1, M]⟩ : Shape).BroadcastsInDim ⟨2, ![N, M]⟩ ![0, 1])
    (h4 : (⟨1, ![M]⟩ : Shape).BroadcastsInDim ⟨2, ![1, M]⟩ ![1])
    (h5 : (⟨1, ![N]⟩ : Shape).ShapeCasts ⟨2, ![N, 1]⟩) (h6 : (⟨1, ![M]⟩ : Shape).ShapeCasts ⟨2, ![1, M]⟩)
    (h7 : (⟨0, ![]⟩ : Shape).BroadcastsInDim ⟨1, ![N]⟩ ![]) :
    Cert.SageLayer.linear (mulf agg (broadcastInDim ⟨2, ![N, K]⟩ ![0, 1] h1 (broadcastInDim ⟨2, ![N, 1]⟩ ![0] h2
        (Host.divf (F := Ideal) (broadcastInDim ⟨1, ![N]⟩ ![] h7 (constant (F := Ideal) ⟨0, ![]⟩ .f32 0x3F800000#32)) d))))
        x wl wr (shapeCast ⟨2, ![1, M]⟩ bias h6)
      = addf (addf (Host.dotGeneral (F := Ideal) dr none
            (Host.divf (F := Ideal) agg (broadcastInDim ⟨2, ![N, K]⟩ ![0, 1] h1 (broadcastInDim ⟨2, ![N, 1]⟩ ![0] h2 d))) wl)
          (broadcastInDim ⟨2, ![N, M]⟩ ![0, 1] h3 (broadcastInDim ⟨2, ![1, M]⟩ ![1] h4 bias)))
        (Host.dotGeneral (F := Ideal) dr none x wr) := by
  rw [← Cert.Proof.Layout.reshape_col_eq_broadcastInDim
    (Host.divf (F := Ideal) (broadcastInDim ⟨1, ![N]⟩ ![] h7 (constant (F := Ideal) ⟨0, ![]⟩ .f32 0x3F800000#32)) d) h5 h2]
  exact Cert.SageLayer.linear_eq_ref dr hdr agg x d hd wl wr bias h1 h2 h3 h4 h5 h6 h7

/-- The layer with rectifier: the same, under max(·, 0). -/
theorem hidden_layer_eq_ref
    (dr : DotDims ⟨2, ![N, K]⟩ ⟨2, ![K, M]⟩ ⟨2, ![N, M]⟩) (hdr : dr = DotDims.plain N K M)
    (agg x : FVec Ideal ⟨2, ![N, K]⟩ .f32) (d : FVec Ideal ⟨1, ![N]⟩ .f32) (hd : AllNonzero d)
    (wl wr : FVec Ideal ⟨2, ![K, M]⟩ .f32) (bias : FVec Ideal ⟨1, ![M]⟩ .f32)
    (h1 : (⟨2, ![N, 1]⟩ : Shape).BroadcastsInDim ⟨2, ![N, K]⟩ ![0, 1])
    (h2 : (⟨1, ![N]⟩ : Shape).BroadcastsInDim ⟨2, ![N, 1]⟩ ![0])
    (h3 : (⟨2, ![1, M]⟩ : Shape).BroadcastsInDim ⟨2, ![N, M]⟩ ![0, 1])
    (h4 : (⟨1, ![M]⟩ : Shape).BroadcastsInDim ⟨2, ![1, M]⟩ ![1])
    (h5 : (⟨1, ![N]⟩ : Shape).ShapeCasts ⟨2, ![N, 1]⟩) (h6 : (⟨1, ![M]⟩ : Shape).ShapeCasts ⟨2, ![1, M]⟩)
    (h7 : (⟨0, ![]⟩ : Shape).BroadcastsInDim ⟨1, ![N]⟩ ![])
    (hz : (⟨0, ![]⟩ : Shape).BroadcastsInDim ⟨2, ![N, M]⟩ ![]) :
    Cert.SageLayer.hidden (mulf agg (broadcastInDim ⟨2, ![N, K]⟩ ![0, 1] h1 (broadcastInDim ⟨2, ![N, 1]⟩ ![0] h2
        (Host.divf (F := Ideal) (broadcastInDim ⟨1, ![N]⟩ ![] h7 (constant (F := Ideal) ⟨0, ![]⟩ .f32 0x3F800000#32)) d))))
        x wl wr (shapeCast ⟨2, ![1, M]⟩ bias h6)
      = maximumf (addf (addf (Host.dotGeneral (F := Ideal) dr none
            (Host.divf (F := Ideal) agg (broadcastInDim ⟨2, ![N, K]⟩ ![0, 1] h1 (broadcastInDim ⟨2, ![N, 1]⟩ ![0] h2 d))) wl)
          (broadcastInDim ⟨2, ![N, M]⟩ ![0, 1] h3 (broadcastInDim ⟨2, ![1, M]⟩ ![1] h4 bias)))
        (Host.dotGeneral (F := Ideal) dr none x wr))
        (broadcastInDim ⟨2, ![N, M]⟩ ![] hz (constant (F := Ideal) ⟨0, ![]⟩ .f32 0x00000000#32)) := by
  rw [← Cert.Proof.Layout.reshape_col_eq_broadcastInDim
    (Host.divf (F := Ideal) (broadcastInDim ⟨1, ![N]⟩ ![] h7 (constant (F := Ideal) ⟨0, ![]⟩ .f32 0x3F800000#32)) d) h5 h2]
  exact Cert.SageLayer.hidden_eq_ref dr hdr agg x d hd wl wr bias h1 h2 h3 h4 h5 h6 h7 hz

/-- The layer's entry on a block against its entry on the whole arrays: equal when block row p is array row r of both
    row arrays and the block's weights and bias row are the arrays' own. -/
theorem entry_eq_of (mean x : FVec Ideal ⟨2, ![n, K]⟩ .f32) (mean' x' : FVec Ideal ⟨2, ![N, K]⟩ .f32)
    (wl wr wl' wr' : FVec Ideal ⟨2, ![K, M]⟩ .f32) (b b' : FVec Ideal ⟨2, ![1, M]⟩ .f32) (p : Fin n) (r : Fin N)
    (hm : ∀ k : Fin K, mean (ix2 p k) = mean' (ix2 r k)) (hx : ∀ k : Fin K, x (ix2 p k) = x' (ix2 r k))
    (hl : wl = wl') (hr : wr = wr') (hb : b = b') (q q' : Fin M) (hq : q' = q) :
    Cert.SageLayer.entry mean x wl wr b p q = Cert.SageLayer.entry mean' x' wl' wr' b' r q' := by
  subst hl hr hb hq
  exact Cert.SageLayer.entry_congr_rows mean x mean' x' wl wr b p r hm hx q'

/-! ## The pair head -/

/-- Entry (i, j) of the head: the logistic function of the product's entry plus the bias row's entry j. -/
def headEntry (pair : FVec Ideal ⟨2, ![N, K]⟩ .f32) (wt : FVec Ideal ⟨2, ![K, M]⟩ .f32) (b : FVec Ideal ⟨2, ![1, M]⟩ .f32)
    (i : Fin N) (j : Fin M) : EReal :=
  Ideal.logistic (∑ k : Fin K, pair (ix2 i k) * wt (ix2 k j) + b (ix2 (0 : Fin 1) j))

/-- The head as one array. -/
def head (pair : FVec Ideal ⟨2, ![N, K]⟩ .f32) (wt : FVec Ideal ⟨2, ![K, M]⟩ .f32) (b : FVec Ideal ⟨2, ![1, M]⟩ .f32) :
    FVec Ideal ⟨2, ![N, M]⟩ .f32 := fun i => headEntry pair wt b (i 0) (i 1)

/-- The head's entry reads only row i of the pair array. -/
theorem headEntry_congr_row (pair : FVec Ideal ⟨2, ![n, K]⟩ .f32) (pair' : FVec Ideal ⟨2, ![N, K]⟩ .f32)
    (wt wt' : FVec Ideal ⟨2, ![K, M]⟩ .f32) (b b' : FVec Ideal ⟨2, ![1, M]⟩ .f32) (p : Fin n) (r : Fin N)
    (hp : ∀ k : Fin K, pair (ix2 p k) = pair' (ix2 r k)) (hw : wt = wt') (hb : b = b') (q q' : Fin M) (hq : q' = q) :
    headEntry pair wt b p q = headEntry pair' wt' b' r q' := by
  subst hw hb hq
  unfold headEntry
  have e : ∀ k : Fin K, pair (ix2 p k) * wt (ix2 k q') = pair' (ix2 r k) * wt (ix2 k q') := fun k => by rw [hp k]
  rw [Finset.sum_congr rfl fun k _ => e k]

/-- The tiled body on a block of n rows, at entry (p, q): the head's entry on the block's rows. -/
theorem head_body_entry
    (dk : DotDims ⟨2, ![n, K]⟩ ⟨2, ![K, M]⟩ ⟨2, ![n, M]⟩) (hdk : dk = DotDims.plain n K M)
    (hlt : FTy.bf16.bits < FTy.f32.bits)
    (hc1 : (⟨2, ![1, M]⟩ : Shape).ShapeCasts ⟨2, ![1, M]⟩) (hb : (⟨2, ![1, M]⟩ : Shape).Broadcasts ⟨2, ![n, M]⟩)
    (x0 : FVec Ideal ⟨2, ![n, K]⟩ .f32) (w0 : FVec Ideal ⟨2, ![K, M]⟩ .f32) (c : FVec Ideal ⟨2, ![1, M]⟩ .f32)
    (p : Fin n) (q : Fin M) :
    logistic (addf (matmul dk none (truncf .bf16 x0 hlt) (truncf .bf16 w0 hlt) (constant ⟨2, ![n, M]⟩ .f32 0x00000000#32))
        (broadcastTo ⟨2, ![n, M]⟩ (shapeCast ⟨2, ![1, M]⟩ c hc1) hb)) (ix2 p q)
      = headEntry x0 w0 c p q := by
  have e : addf (matmul dk none (truncf .bf16 x0 hlt) (truncf .bf16 w0 hlt) (constant ⟨2, ![n, M]⟩ .f32 0x00000000#32))
        (broadcastTo ⟨2, ![n, M]⟩ (shapeCast ⟨2, ![1, M]⟩ c hc1) hb) (ix2 p q)
      = ∑ k : Fin K, x0 (ix2 p k) * w0 (ix2 k q) + c (ix2 (0 : Fin 1) q) := by
    rw [addf_apply, Cert.LibDenseLayer.bias_block_entry hc1 hb c p q]
    show FloatOps.matmul dk none _ _ _ _ + _ = _
    rw [Cert.LibBlocks.matmul_plain_apply dk hdk]
    rfl
  exact congrArg Ideal.logistic e

/-- The head in the array arrangement: 1 / (1 + exp(-(pair · w + bias))), the bias vector repeated to a row and down
    the rows. -/
theorem head_eq_ref
    (dr : DotDims ⟨2, ![N, K]⟩ ⟨2, ![K, M]⟩ ⟨2, ![N, M]⟩) (hdr : dr = DotDims.plain N K M)
    (pair : FVec Ideal ⟨2, ![N, K]⟩ .f32) (wt : FVec Ideal ⟨2, ![K, M]⟩ .f32) (bias : FVec Ideal ⟨1, ![M]⟩ .f32)
    (h3 : (⟨2, ![1, M]⟩ : Shape).BroadcastsInDim ⟨2, ![N, M]⟩ ![0, 1])
    (h4 : (⟨1, ![M]⟩ : Shape).BroadcastsInDim ⟨2, ![1, M]⟩ ![1])
    (h6 : (⟨1, ![M]⟩ : Shape).ShapeCasts ⟨2, ![1, M]⟩)
    (ho : (⟨0, ![]⟩ : Shape).BroadcastsInDim ⟨2, ![N, M]⟩ ![]) :
    head pair wt (shapeCast ⟨2, ![1, M]⟩ bias h6)
      = Host.divf (F := Ideal) (broadcastInDim ⟨2, ![N, M]⟩ ![] ho (constant (F := Ideal) ⟨0, ![]⟩ .f32 0x3F800000#32))
          (addf (broadcastInDim ⟨2, ![N, M]⟩ ![] ho (constant (F := Ideal) ⟨0, ![]⟩ .f32 0x3F800000#32))
            (Host.exp (F := Ideal) (Host.negf (F := Ideal) (addf (Host.dotGeneral (F := Ideal) dr none pair wt)
              (broadcastInDim ⟨2, ![N, M]⟩ ![0, 1] h3 (broadcastInDim ⟨2, ![1, M]⟩ ![1] h4 bias)))))) := by
  funext idx
  obtain ⟨i, j, rfl⟩ : ∃ (i : Fin N) (j : Fin M), idx = ix2 i j := ⟨idx 0, idx 1, eq_ix2 idx⟩
  have e1 : broadcastInDim ⟨2, ![N, M]⟩ ![] ho (constant (F := Ideal) ⟨0, ![]⟩ .f32 0x3F800000#32) (ix2 i j) = (1 : EReal) := by
    rw [broadcastInDim_apply ![] ho (constant (F := Ideal) ⟨0, ![]⟩ .f32 0x3F800000#32) (ix2 i j) ix0 (fun a => a.elim0)]
    show Ideal.ofBits .f32 0x3F800000#32 = 1
    rw [ofBits_one]; rfl
  show headEntry pair wt _ i j
    = Ideal.div (broadcastInDim ⟨2, ![N, M]⟩ ![] ho (constant (F := Ideal) ⟨0, ![]⟩ .f32 0x3F800000#32) (ix2 i j))
        (broadcastInDim ⟨2, ![N, M]⟩ ![] ho (constant (F := Ideal) ⟨0, ![]⟩ .f32 0x3F800000#32) (ix2 i j)
          + Ideal.exp (-(FloatOps.dotGeneral dr none .single pair wt (ix2 i j)
              + broadcastInDim ⟨2, ![N, M]⟩ ![0, 1] h3 (broadcastInDim ⟨2, ![1, M]⟩ ![1] h4 bias) (ix2 i j))))
  rw [e1, Cert.LibBlocks.dotGeneral_plain_apply dr hdr, Cert.SageLayer.bias_entry bias h3 h4 h6 i j]
  rfl

end Cert.SageBridge

end
-- ==== Proof.LayerOne.lean ====
/-
  The first graph-convolution layer's tiled program, read as one array.

  The program works the 50000 nodes in 25 blocks of 2000 rows. At block t it reads rows 2000 t … 2000 t + 1999 of the
  mean-aggregate array and of the feature array, the two 128 x 256 weight matrices and the 1 x 256 bias row whole, and
  writes rows 2000 t … 2000 t + 1999 of the result: entry (p, q) of the block is
      max( Σ_k mean(2000 t + p, k) wl(k, q) + Σ_k x(2000 t + p, k) wr(k, q) + b(0, q), 0 ).
  That is row 2000 t + p of ONE array, the layer with rectifier of the whole arrays; the 25 blocks tile the 50000 rows,
  so the result array ends holding that array.
-/
import proofs.«167262_j17119739641947_1_alg».proof.Proof.Gen.KernelIdeal.Frame
import proofs.«167262_j17119739641947_1_alg».proof.Proof.SageBridge
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 points: the row windows move with the point, the weights and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The layer with rectifier of the arrays the region finds: what the result array ends holding. -/
def G (c : Dev nD) : FVec Ideal S50000x256 .f32 :=
  Cert.SageLayer.hidden (N := 50000) (K := 128) (M := 256) (V c main_v24) (V c main_arg0) (V c main_arg3) (V c main_arg5) (V c main_v25)

/-- The body's stored value at entry (p, q) of its block: the layer's entry on the block's rows, under the rectifier. -/
theorem pay_entry (x0 x1 : Vec Ideal S2000x128 .f32) (x2 x4 : Vec Ideal S128x256 .f32) (x3 : Vec Ideal S1x256 .f32)
    (p : Fin 2000) (q : Fin 256) :
    k0_pay1 x0 x1 x2 x4 x3 (ix2 p q)
      = max (Cert.SageLayer.entry (N := 2000) (K := 128) (M := 256) x0 x1 x2 x4 x3 p q) (Ideal.ofBits .f32 0x00000000#32) := by
  unfold k0_pay1
  refine (Cert.SageLayer.hidden_body_entry (n := 2000) (K := 128) (M := 256) dot_S2000x128_S128x256_S2000x256_1_0_0_1_n_n rfl
    bitsLt_bf16_f32 shapeCasts_S1x256_S1x256 broadcasts_S1x256_S2000x256
    (shapeCast S2000x128 x0 shapeCasts_S2000x128_S2000x128) x1 x2 x4 x3 p q).trans ?_
  rw [shapeCast_self]

/-- Row p of block t of the mean-aggregate array is row 2000 t + p of the array. -/
theorem blk0_apply (c : Dev nD) (t : Fin cfg0.N) (x : S2000x128.Idx) (k : S50000x128.Idx)
    (hk0 : (k 0).val = 2000 * t.val + (x 0).val) (hk1 : (k 1).val = (x 1).val) :
    (iblk0 V c 0 t : Vec Ideal S2000x128 .f32) x = (V c main_v24 : S50000x128.Idx → EReal) k := by
  obtain ⟨e0, e1, -⟩ := idx_facts t
  unfold iblk0
  rw [View.read_apply]
  show V c main_v24 _ = V c main_v24 _
  congr 1
  funext a
  apply Fin.ext
  match a with
  | ⟨0, _⟩ => show win0_0.index t 0 * 2000 + 1 * (x 0).val = (k 0).val; rw [e0, hk0]; omega
  | ⟨1, _⟩ => show win0_0.index t 1 * 128 + 1 * (x 1).val = (k 1).val; rw [e1, hk1]; omega

/-- Row p of block t of the feature array is row 2000 t + p of the array. -/
theorem blk1_apply (c : Dev nD) (t : Fin cfg0.N) (x : S2000x128.Idx) (k : S50000x128.Idx)
    (hk0 : (k 0).val = 2000 * t.val + (x 0).val) (hk1 : (k 1).val = (x 1).val) :
    (iblk0 V c 1 t : Vec Ideal S2000x128 .f32) x = (V c main_arg0 : S50000x128.Idx → EReal) k := by
  obtain ⟨-, -, e0, e1, -⟩ := idx_facts t
  unfold iblk0
  rw [View.read_apply]
  show V c main_arg0 _ = V c main_arg0 _
  congr 1
  funext a
  apply Fin.ext
  match a with
  | ⟨0, _⟩ => show win0_1.index t 0 * 2000 + 1 * (x 0).val = (k 0).val; rw [e0, hk0]; omega
  | ⟨1, _⟩ => show win0_1.index t 1 * 128 + 1 * (x 1).val = (k 1).val; rw [e1, hk1]; omega

/-- The left weight matrix is read whole at every point. -/
theorem blk2_eq (c : Dev nD) (t : Fin cfg0.N) : (iblk0 V c 2 t : Vec Ideal S128x256 .f32) = (V c main_arg3 : S128x256.Idx → EReal) := by
  obtain ⟨-, -, -, -, e0, e1, -⟩ := idx_facts t
  funext x
  unfold iblk0
  rw [View.read_apply]
  show V c main_arg3 _ = V c main_arg3 x
  congr 1
  funext a
  apply Fin.ext
  match a with
  | ⟨0, _⟩ => show win0_2.index t 0 * 128 + 1 * (x 0).val = (x 0).val; rw [e0]; omega
  | ⟨1, _⟩ => show win0_2.index t 1 * 256 + 1 * (x 1).val = (x 1).val; rw [e1]; omega

/-- The bias row is read whole at every point. -/
theorem blk3_eq (c : Dev nD) (t : Fin cfg0.N) : (iblk0 V c 3 t : Vec Ideal S1x256 .f32) = (V c main_v25 : S1x256.Idx → EReal) := by
  obtain ⟨-, -, -, -, -, -, e0, e1, -⟩ := idx_facts t
  funext x
  unfold iblk0
  rw [View.read_apply]
  show V c main_v25 _ = V c main_v25 x
  congr 1
  funext a
  apply Fin.ext
  match a with
  | ⟨0, _⟩ => show win0_3.index t 0 * 1 + 1 * (x 0).val = (x 0).val; rw [e0]; omega
  | ⟨1, _⟩ => show win0_3.index t 1 * 256 + 1 * (x 1).val = (x 1).val; rw [e1]; omega

/-- The right weight matrix is read whole at every point. -/
theorem blk4_eq (c : Dev nD) (t : Fin cfg0.N) : (iblk0 V c 4 t : Vec Ideal S128x256 .f32) = (V c main_arg5 : S128x256.Idx → EReal) := by
  obtain ⟨-, -, -, -, -, -, -, -, e0, e1, -⟩ := idx_facts t
  funext x
  unfold iblk0
  rw [View.read_apply]
  show V c main_arg5 _ = V c main_arg5 x
  congr 1
  funext a
  apply Fin.ext
  match a with
  | ⟨0, _⟩ => show win0_4.index t 0 * 128 + 1 * (x 0).val = (x 0).val; rw [e0]; omega
  | ⟨1, _⟩ => show win0_4.index t 1 * 256 + 1 * (x 1).val = (x 1).val; rw [e1]; omega

/-- What point t writes back is block t of the layer's array. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x256) hz, View.ld_unit_zero (S := S1x256) hz]
  funext j
  obtain ⟨p, q, rfl⟩ : ∃ (p : Fin 2000) (q : Fin 256), j = ix2 p q := ⟨j 0, j 1, eq_ix2 j⟩
  refine (pay_entry (iblk0 V c 0 t) (iblk0 V c 1 t) (iblk0 V c 2 t) (iblk0 V c 4 t) (iblk0 V c 3 t) p q).trans ?_
  show _ = G V c (((cfg0.win 5).blk t).view.emb (ix2 p q))
  obtain ⟨-, -, -, -, -, -, -, -, -, -, e0, e1⟩ := idx_facts t
  have hr : ((((cfg0.win 5).blk t).view.emb (ix2 p q)) 0).val = 2000 * t.val + p.val := by
    show win0_5.index t 0 * 2000 + 1 * p.val = _
    rw [e0]; omega
  have hq : (((cfg0.win 5).blk t).view.emb (ix2 p q)) 1 = q :=
    Fin.ext (by show win0_5.index t 1 * 256 + 1 * q.val = q.val; rw [e1]; omega)
  unfold G Cert.SageLayer.hidden
  refine congrArg (fun z => max z (Ideal.ofBits .f32 0x00000000#32)) ?_
  exact Cert.SageBridge.entry_eq_of (n := 2000) (N := 50000) (K := 128) (M := 256)
    (iblk0 V c 0 t) (iblk0 V c 1 t) (V c main_v24) (V c main_arg0)
    (iblk0 V c 2 t) (iblk0 V c 4 t) (V c main_arg3) (V c main_arg5) (iblk0 V c 3 t) (V c main_v25) p _
    (fun k => blk0_apply V c t (ix2 p k) (ix2 _ k) hr rfl) (fun k => blk1_apply V c t (ix2 p k) (ix2 _ k) hr rfl)
    (blk2_eq V c t) (blk4_eq V c t) (blk3_eq V c t) q _ hq

/-- The result array after the region: the layer with rectifier of the arrays the region finds. Row r of the result
    lies in block r / 2000, so the 25 blocks cover it. -/
theorem final (c : Dev nD) : (dat0 V c).arrAt 5 cfg0.N = G V c :=
  (dat0 V c).arrAt_eq_of_cover 5 (G V c) (fun t _ => flushed_eq V c t) fun i => by
    have h0 : (i 0 : Nat) < 50000 := (i 0).isLt
    have h1 : (i 1 : Nat) < 256 := (i 1).isLt
    have hN : cfg0.N = 25 := N_0
    have ht : (i 0 : Nat) / 2000 < cfg0.N := by rw [hN]; omega
    obtain ⟨-, -, -, -, -, -, -, -, -, -, e0, e1⟩ := idx_facts ⟨(i 0 : Nat) / 2000, ht⟩
    refine ⟨⟨(i 0 : Nat) / 2000, ht⟩, flush0_5 _, ?_⟩
    show i ∈ ((View.whole main_v26).slice (win0_5.rect ⟨(i 0 : Nat) / 2000, ht⟩)).set
    rw [View.set_slice_whole, Rect.mem_set_unit]
    intro a
    match a with
    | ⟨0, _⟩ =>
      show win0_5.index ⟨(i 0 : Nat) / 2000, ht⟩ 0 * 2000 ≤ (i 0 : Nat)
        ∧ (i 0 : Nat) < win0_5.index ⟨(i 0 : Nat) / 2000, ht⟩ 0 * 2000 + 2000
      rw [e0]
      show (i 0 : Nat) / 2000 * 2000 ≤ (i 0 : Nat) ∧ (i 0 : Nat) < (i 0 : Nat) / 2000 * 2000 + 2000
      omega
    | ⟨1, _⟩ =>
      show win0_5.index ⟨(i 0 : Nat) / 2000, ht⟩ 1 * 256 ≤ (i 1 : Nat)
        ∧ (i 1 : Nat) < win0_5.index ⟨(i 0 : Nat) / 2000, ht⟩ 1 * 256 + 256
      rw [e1]
      omega

end Cert.KernelIdeal.Layer1

end
-- ==== Proof.LayerTwo.lean ====
/-
  The second graph-convolution layer's tiled program, read as one array.

  Again 25 blocks of 2000 rows. At block t the program reads rows 2000 t … 2000 t + 1999 of the second mean-aggregate
  array and of the first layer's result (both 256 wide), the two 256 x 128 weight matrices and the 1 x 128 bias row whole,
  and writes rows 2000 t … 2000 t + 1999 of the result: entry (p, q) of the block is
      Σ_k mean(2000 t + p, k) wl(k, q) + Σ_k x(2000 t + p, k) wr(k, q) + b(0, q),
  with no rectifier. That is row 2000 t + p of the layer of the whole arrays, and the 25 blocks tile the 50000 rows.
-/
import proofs.«167262_j17119739641947_1_alg».proof.Proof.Gen.KernelIdeal.Frame
import proofs.«167262_j17119739641947_1_alg».proof.Proof.SageBridge
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 points: the row windows move with the point, the weights and the bias stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The layer (no rectifier) of the arrays the region finds: what the result array ends holding. -/
def G (c : Dev nD) : FVec Ideal S50000x128 .f32 :=
  Cert.SageLayer.linear (N := 50000) (K := 256) (M := 128) (V c main_v38) (V c main_v26) (V c main_arg6) (V c main_arg8) (V c main_v39)

/-- The body's stored value at entry (p, q) of its block: the layer's entry on the block's rows. -/
theorem pay_entry (x0 x1 : Vec Ideal S2000x256 .f32) (x2 x4 : Vec Ideal S256x128 .f32) (x3 : Vec Ideal S1x128 .f32)
    (p : Fin 2000) (q : Fin 128) :
    k1_pay1 x0 x1 x2 x4 x3 (ix2 p q) = Cert.SageLayer.entry (N := 2000) (K := 256) (M := 128) x0 x1 x2 x4 x3 p q := by
  unfold k1_pay1
  refine (Cert.SageLayer.linear_body_entry (n := 2000) (K := 256) (M := 128) dot_S2000x256_S256x128_S2000x128_1_0_0_1_n_n rfl
    bitsLt_bf16_f32 shapeCasts_S1x128_S1x128 broadcasts_S1x128_S2000x128
    (shapeCast S2000x256 x0 shapeCasts_S2000x256_S2000x256) (shapeCast S2000x256 x1 shapeCasts_S2000x256_S2000x256)
    x2 x4 x3 p q).trans ?_
  rw [shapeCast_self, shapeCast_self]

/-- Row p of block t of the mean-aggregate array is row 2000 t + p of the array. -/
theorem blk0_apply (c : Dev nD) (t : Fin cfg1.N) (x : S2000x256.Idx) (k : S50000x256.Idx)
    (hk0 : (k 0).val = 2000 * t.val + (x 0).val) (hk1 : (k 1).val = (x 1).val) :
    (iblk1 V c 0 t : Vec Ideal S2000x256 .f32) x = (V c main_v38 : S50000x256.Idx → EReal) k := by
  obtain ⟨e0, e1, -⟩ := idx_facts t
  unfold iblk1
  rw [View.read_apply]
  show V c main_v38 _ = V c main_v38 _
  congr 1
  funext a
  apply Fin.ext
  match a with
  | ⟨0, _⟩ => show win1_0.index t 0 * 2000 + 1 * (x 0).val = (k 0).val; rw [e0, hk0]; omega
  | ⟨1, _⟩ => show win1_0.index t 1 * 256 + 1 * (x 1).val = (k 1).val; rw [e1, hk1]; omega

/-- Row p of block t of the first layer's result is row 2000 t + p of the array. -/
theorem blk1_apply (c : Dev nD) (t : Fin cfg1.N) (x : S2000x256.Idx) (k : S50000x256.Idx)
    (hk0 : (k 0).val = 2000 * t.val + (x 0).val) (hk1 : (k 1).val = (x 1).val) :
    (iblk1 V c 1 t : Vec Ideal S2000x256 .f32) x = (V c main_v26 : S50000x256.Idx → EReal) k := by
  obtain ⟨-, -, e0, e1, -⟩ := idx_facts t
  unfold iblk1
  rw [View.read_apply]
  show V c main_v26 _ = V c main_v26 _
  congr 1
  funext a
  apply Fin.ext
  match a with
  | ⟨0, _⟩ => show win1_1.index t 0 * 2000 + 1 * (x 0).val = (k 0).val; rw [e0, hk0]; omega
  | ⟨1, _⟩ => show win1_1.index t 1 * 256 + 1 * (x 1).val = (k 1).val; rw [e1, hk1]; omega

/-- The left weight matrix is read whole at every point. -/
theorem blk2_eq (c : Dev nD) (t : Fin cfg1.N) : (iblk1 V c 2 t : Vec Ideal S256x128 .f32) = (V c main_arg6 : S256x128.Idx → EReal) := by
  obtain ⟨-, -, -, -, e0, e1, -⟩ := idx_facts t
  funext x
  unfold iblk1
  rw [View.read_apply]
  show V c main_arg6 _ = V c main_arg6 x
  congr 1
  funext a
  apply Fin.ext
  match a with
  | ⟨0, _⟩ => show win1_2.index t 0 * 256 + 1 * (x 0).val = (x 0).val; rw [e0]; omega
  | ⟨1, _⟩ => show win1_2.index t 1 * 128 + 1 * (x 1).val = (x 1).val; rw [e1]; omega

/-- The bias row is read whole at every point. -/
theorem blk3_eq (c : Dev nD) (t : Fin cfg1.N) : (iblk1 V c 3 t : Vec Ideal S1x128 .f32) = (V c main_v39 : S1x128.Idx → EReal) := by
  obtain ⟨-, -, -, -, -, -, e0, e1, -⟩ := idx_facts t
  funext x
  unfold iblk1
  rw [View.read_apply]
  show V c main_v39 _ = V c main_v39 x
  congr 1
  funext a
  apply Fin.ext
  match a with
  | ⟨0, _⟩ => show win1_3.index t 0 * 1 + 1 * (x 0).val = (x 0).val; rw [e0]; omega
  | ⟨1, _⟩ => show win1_3.index t 1 * 128 + 1 * (x 1).val = (x 1).val; rw [e1]; omega

/-- The right weight matrix is read whole at every point. -/
theorem blk4_eq (c : Dev nD) (t : Fin cfg1.N) : (iblk1 V c 4 t : Vec Ideal S256x128 .f32) = (V c main_arg8 : S256x128.Idx → EReal) := by
  obtain ⟨-, -, -, -, -, -, -, -, e0, e1, -⟩ := idx_facts t
  funext x
  unfold iblk1
  rw [View.read_apply]
  show V c main_arg8 _ = V c main_arg8 x
  congr 1
  funext a
  apply Fin.ext
  match a with
  | ⟨0, _⟩ => show win1_4.index t 0 * 256 + 1 * (x 0).val = (x 0).val; rw [e0]; omega
  | ⟨1, _⟩ => show win1_4.index t 1 * 128 + 1 * (x 1).val = (x 1).val; rw [e1]; omega

/-- What point t writes back is block t of the layer's array. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x128) hz, View.ld_unit_zero (S := S1x128) hz]
  funext j
  obtain ⟨p, q, rfl⟩ : ∃ (p : Fin 2000) (q : Fin 128), j = ix2 p q := ⟨j 0, j 1, eq_ix2 j⟩
  refine (pay_entry (iblk1 V c 0 t) (iblk1 V c 1 t) (iblk1 V c 2 t) (iblk1 V c 4 t) (iblk1 V c 3 t) p q).trans ?_
  show _ = G V c (((cfg1.win 5).blk t).view.emb (ix2 p q))
  obtain ⟨-, -, -, -, -, -, -, -, -, -, e0, e1⟩ := idx_facts t
  have hr : ((((cfg1.win 5).blk t).view.emb (ix2 p q)) 0).val = 2000 * t.val + p.val := by
    show win1_5.index t 0 * 2000 + 1 * p.val = _
    rw [e0]; omega
  have hq : (((cfg1.win 5).blk t).view.emb (ix2 p q)) 1 = q :=
    Fin.ext (by show win1_5.index t 1 * 128 + 1 * q.val = q.val; rw [e1]; omega)
  unfold G Cert.SageLayer.linear
  exact Cert.SageBridge.entry_eq_of (n := 2000) (N := 50000) (K := 256) (M := 128)
    (iblk1 V c 0 t) (iblk1 V c 1 t) (V c main_v38) (V c main_v26)
    (iblk1 V c 2 t) (iblk1 V c 4 t) (V c main_arg6) (V c main_arg8) (iblk1 V c 3 t) (V c main_v39) p _
    (fun k => blk0_apply V c t (ix2 p k) (ix2 _ k) hr rfl) (fun k => blk1_apply V c t (ix2 p k) (ix2 _ k) hr rfl)
    (blk2_eq V c t) (blk4_eq V c t) (blk3_eq V c t) q _ hq

/-- The result array after the region: the layer of the arrays the region finds. Row r of the result lies in block
    r / 2000, so the 25 blocks cover it. -/
theorem final (c : Dev nD) : (dat1 V c).arrAt 5 cfg1.N = G V c :=
  (dat1 V c).arrAt_eq_of_cover 5 (G V c) (fun t _ => flushed_eq V c t) fun i => by
    have h0 : (i 0 : Nat) < 50000 := (i 0).isLt
    have h1 : (i 1 : Nat) < 128 := (i 1).isLt
    have hN : cfg1.N = 25 := N_1
    have ht : (i 0 : Nat) / 2000 < cfg1.N := by rw [hN]; omega
    obtain ⟨-, -, -, -, -, -, -, -, -, -, e0, e1⟩ := idx_facts ⟨(i 0 : Nat) / 2000, ht⟩
    refine ⟨⟨(i 0 : Nat) / 2000, ht⟩, flush1_5 _, ?_⟩
    show i ∈ ((View.whole main_v40).slice (win1_5.rect ⟨(i 0 : Nat) / 2000, ht⟩)).set
    rw [View.set_slice_whole, Rect.mem_set_unit]
    intro a
    match a with
    | ⟨0, _⟩ =>
      show win1_5.index ⟨(i 0 : Nat) / 2000, ht⟩ 0 * 2000 ≤ (i 0 : Nat)
        ∧ (i 0 : Nat) < win1_5.index ⟨(i 0 : Nat) / 2000, ht⟩ 0 * 2000 + 2000
      rw [e0]
      show (i 0 : Nat) / 2000 * 2000 ≤ (i 0 : Nat) ∧ (i 0 : Nat) < (i 0 : Nat) / 2000 * 2000 + 2000
      omega
    | ⟨1, _⟩ =>
      show win1_5.index ⟨(i 0 : Nat) / 2000, ht⟩ 1 * 128 ≤ (i 1 : Nat)
        ∧ (i 1 : Nat) < win1_5.index ⟨(i 0 : Nat) / 2000, ht⟩ 1 * 128 + 128
      rw [e1]
      omega

end Cert.KernelIdeal.Layer2

end
-- ==== Proof.PairHead.lean ====
/-
  The pair head's tiled program, read as one array.

  The 200000 pairs are worked in 50 blocks of 4000 rows. At block t the program reads rows 4000 t … 4000 t + 3999 of the
  pair array (256 wide), the 256 x 1 weight column and the 1 x 1 bias whole, and writes rows 4000 t … 4000 t + 3999 of the
  result: entry (p, 0) of the block is the logistic function of Σ_k pair(4000 t + p, k) w(k, 0) + b(0, 0). That is row
  4000 t + p of the head of the whole arrays, and the 50 blocks tile the 200000 rows.
-/
import proofs.«167262_j17119739641947_1_alg».proof.Proof.Gen.KernelIdeal.Frame
import proofs.«167262_j17119739641947_1_alg».proof.Proof.SageBridge
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.PairHead

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 50 points: the pair window moves with the point, the weight and the bias stay. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The head of the arrays the region finds: what the result array ends holding. -/
def G (c : Dev nD) : FVec Ideal S200000x1 .f32 :=
  Cert.SageBridge.head (N := 200000) (K := 256) (M := 1) (V c main_v59) (V c main_arg9) (V c main_v60)

/-- The body's stored value at entry (p, q) of its block: the head's entry on the block's rows. -/
theorem pay_entry (x0 : Vec Ideal S4000x256 .f32) (x1 : Vec Ideal S256x1 .f32) (x2 : Vec Ideal S1x1 .f32)
    (p : Fin 4000) (q : Fin 1) :
    k2_pay1 x0 x1 x2 (ix2 p q) = Cert.SageBridge.headEntry (N := 4000) (K := 256) (M := 1) x0 x1 x2 p q := by
  unfold k2_pay1
  refine (Cert.SageBridge.head_body_entry (n := 4000) (K := 256) (M := 1) dot_S4000x256_S256x1_S4000x1_1_0_0_1_n_n rfl
    bitsLt_bf16_f32 shapeCasts_S1x1_S1x1 broadcasts_S1x1_S4000x1
    (shapeCast S4000x256 x0 shapeCasts_S4000x256_S4000x256) x1 x2 p q).trans ?_
  rw [shapeCast_self]

/-- Row p of block t of the pair array is row 4000 t + p of the array. -/
theorem blk0_apply (c : Dev nD) (t : Fin cfg2.N) (x : S4000x256.Idx) (k : S200000x256.Idx)
    (hk0 : (k 0).val = 4000 * t.val + (x 0).val) (hk1 : (k 1).val = (x 1).val) :
    (iblk2 V c 0 t : Vec Ideal S4000x256 .f32) x = (V c main_v59 : S200000x256.Idx → EReal) k := by
  obtain ⟨e0, e1, -⟩ := idx_facts t
  unfold iblk2
  rw [View.read_apply]
  show V c main_v59 _ = V c main_v59 _
  congr 1
  funext a
  apply Fin.ext
  match a with
  | ⟨0, _⟩ => show win2_0.index t 0 * 4000 + 1 * (x 0).val = (k 0).val; rw [e0, hk0]; omega
  | ⟨1, _⟩ => show win2_0.index t 1 * 256 + 1 * (x 1).val = (k 1).val; rw [e1, hk1]; omega

/-- The weight column is read whole at every point. -/
theorem blk1_eq (c : Dev nD) (t : Fin cfg2.N) : (iblk2 V c 1 t : Vec Ideal S256x1 .f32) = (V c main_arg9 : S256x1.Idx → EReal) := by
  obtain ⟨-, -, e0, e1, -⟩ := idx_facts t
  funext x
  unfold iblk2
  rw [View.read_apply]
  show V c main_arg9 _ = V c main_arg9 x
  congr 1
  funext a
  apply Fin.ext
  match a with
  | ⟨0, _⟩ => show win2_1.index t 0 * 256 + 1 * (x 0).val = (x 0).val; rw [e0]; omega
  | ⟨1, _⟩ => show win2_1.index t 1 * 1 + 1 * (x 1).val = (x 1).val; rw [e1]; omega

/-- The bias is read whole at every point. -/
theorem blk2_eq (c : Dev nD) (t : Fin cfg2.N) : (iblk2 V c 2 t : Vec Ideal S1x1 .f32) = (V c main_v60 : S1x1.Idx → EReal) := by
  obtain ⟨-, -, -, -, e0, e1, -⟩ := idx_facts t
  funext x
  unfold iblk2
  rw [View.read_apply]
  show V c main_v60 _ = V c main_v60 x
  congr 1
  funext a
  apply Fin.ext
  match a with
  | ⟨0, _⟩ => show win2_2.index t 0 * 1 + 1 * (x 0).val = (x 0).val; rw [e0]; omega
  | ⟨1, _⟩ => show win2_2.index t 1 * 1 + 1 * (x 1).val = (x 1).val; rw [e1]; omega

/-- What point t writes back is block t of the head's array. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S4000x256) hz, View.ld_unit_zero (S := S256x1) hz, View.ld_unit_zero (S := S1x1) hz]
  funext j
  obtain ⟨p, q, rfl⟩ : ∃ (p : Fin 4000) (q : Fin 1), j = ix2 p q := ⟨j 0, j 1, eq_ix2 j⟩
  refine (pay_entry (iblk2 V c 0 t) (iblk2 V c 1 t) (iblk2 V c 2 t) p q).trans ?_
  show _ = G V c (((cfg2.win 3).blk t).view.emb (ix2 p q))
  obtain ⟨-, -, -, -, -, -, e0, e1⟩ := idx_facts t
  have hr : ((((cfg2.win 3).blk t).view.emb (ix2 p q)) 0).val = 4000 * t.val + p.val := by
    show win2_3.index t 0 * 4000 + 1 * p.val = _
    rw [e0]; omega
  have hq : (((cfg2.win 3).blk t).view.emb (ix2 p q)) 1 = q :=
    Fin.ext (by show win2_3.index t 1 * 1 + 1 * q.val = q.val; rw [e1]; omega)
  unfold G Cert.SageBridge.head
  exact Cert.SageBridge.headEntry_congr_row (n := 4000) (N := 200000) (K := 256) (M := 1)
    (iblk2 V c 0 t) (V c main_v59) (iblk2 V c 1 t) (V c main_arg9) (iblk2 V c 2 t) (V c main_v60) p _
    (fun k => blk0_apply V c t (ix2 p k) (ix2 _ k) hr rfl) (blk1_eq V c t) (blk2_eq V c t) q _ hq

/-- The result array after the region: the head of the arrays the region finds. Row r of the result lies in block
    r / 4000, so the 50 blocks cover it. -/
theorem final (c : Dev nD) : (dat2 V c).arrAt 3 cfg2.N = G V c :=
  (dat2 V c).arrAt_eq_of_cover 3 (G V c) (fun t _ => flushed_eq V c t) fun i => by
    have h0 : (i 0 : Nat) < 200000 := (i 0).isLt
    have h1 : (i 1 : Nat) < 1 := (i 1).isLt
    have hN : cfg2.N = 50 := N_2
    have ht : (i 0 : Nat) / 4000 < cfg2.N := by rw [hN]; omega
    obtain ⟨-, -, -, -, -, -, e0, e1⟩ := idx_facts ⟨(i 0 : Nat) / 4000, ht⟩
    refine ⟨⟨(i 0 : Nat) / 4000, ht⟩, flush2_3 _, ?_⟩
    show i ∈ ((View.whole main_v61).slice (win2_3.rect ⟨(i 0 : Nat) / 4000, ht⟩)).set
    rw [View.set_slice_whole, Rect.mem_set_unit]
    intro a
    match a with
    | ⟨0, _⟩ =>
      show win2_3.index ⟨(i 0 : Nat) / 4000, ht⟩ 0 * 4000 ≤ (i 0 : Nat)
        ∧ (i 0 : Nat) < win2_3.index ⟨(i 0 : Nat) / 4000, ht⟩ 0 * 4000 + 4000
      rw [e0]
      show (i 0 : Nat) / 4000 * 4000 ≤ (i 0 : Nat) ∧ (i 0 : Nat) < (i 0 : Nat) / 4000 * 4000 + 4000
      omega
    | ⟨1, _⟩ =>
      show win2_3.index ⟨(i 0 : Nat) / 4000, ht⟩ 1 * 1 ≤ (i 1 : Nat)
        ∧ (i 1 : Nat) < win2_3.index ⟨(i 0 : Nat) / 4000, ht⟩ 1 * 1 + 1
      rw [e1]
      omega

end Cert.KernelIdeal.PairHead

end
-- ==== Proof.KValue.lean ====
/-
  The tiled program's result as one function of the eleven argument arrays: the first layer with rectifier over the
  first mean aggregate, the second layer over the second mean aggregate (of the first layer's result), and the head of
  the pair array of the second layer's result.
-/
import proofs.«167262_j17119739641947_1_alg».proof.Proof.KTerms
import proofs.«167262_j17119739641947_1_alg».proof.Proof.SageBridge

noncomputable section

namespace Cert.KernelIdeal.Value

open Cert.KernelIdeal Cert.KernelIdeal.Gen Cert.KernelIdeal.Terms Idealize.ShloMosaic

variable (x0 : FArr S50000x128) (x1 : IArr S2x600000) (x2 : IArr S200000x2) (x3 : FArr S128x256) (x4 : FArr S256)
  (x5 : FArr S128x256) (x6 : FArr S256x128) (x7 : FArr S128) (x8 : FArr S256x128) (x9 : FArr S256x1) (x10 : FArr S1)

/-- The first layer's result. -/
def h1 : FArr S50000x256 :=
  Cert.SageLayer.hidden (N := 50000) (K := 128) (M := 256)
    (agg128 x0 (srcRow x1) (dstRow x1) (recipCol (dstRow x1))) x0 x3 x5 (shapeCast S1x256 x4 shapeCasts_S256_S1x256)

/-- The second layer's result. -/
def h2 : FArr S50000x128 :=
  Cert.SageLayer.linear (N := 50000) (K := 256) (M := 128)
    (agg256 (h1 x0 x1 x3 x4 x5) (srcRow x1) (dstRow x1) (recipCol (dstRow x1))) (h1 x0 x1 x3 x4 x5) x6 x8
    (shapeCast S1x128 x7 shapeCasts_S128_S1x128)

/-- The program's result. -/
def out : FArr S200000x1 :=
  Cert.SageBridge.head (N := 200000) (K := 256) (M := 1) (pairOf (h2 x0 x1 x3 x4 x5 x6 x7 x8) x2) x9
    (shapeCast S1x1 x10 shapeCasts_S1_S1x1)

end Cert.KernelIdeal.Value

end
-- ==== Proof.KFold.lean ====
/-
  The result buffer at the last boundary, read back to the arguments.

  The boundaries' contents are a fold through @main: a host stretch applies its operations to the contents before it; a
  region leaves its result array at what its blocks wrote (one whole-array function of the arrays it found) and every
  other buffer as it found it. Walking that fold from the launch memory: the first stretch makes the first mean
  aggregate, the first region the first layer's result, the second stretch the second mean aggregate from it, the
  second region the second layer's result, the third stretch the pair array, the third region the head. Each argument
  array is still the launch memory's wherever it is read.
-/
import proofs.«167262_j17119739641947_1_alg».proof.Proof.Gen.KernelIdeal.Frame
import proofs.«167262_j17119739641947_1_alg».proof.Proof.Stretch0
import proofs.«167262_j17119739641947_1_alg».proof.Proof.Stretch1
import proofs.«167262_j17119739641947_1_alg».proof.Proof.Stretch2
import proofs.«167262_j17119739641947_1_alg».proof.Proof.LayerOne
import proofs.«167262_j17119739641947_1_alg».proof.Proof.LayerTwo
import proofs.«167262_j17119739641947_1_alg».proof.Proof.PairHead
import proofs.«167262_j17119739641947_1_alg».proof.Proof.KValue

set_option maxRecDepth 16384

noncomputable section

open Idealize.ShloMosaic Idealize.ShloMosaic.TcCoe Idealize.SL.Sem Idealize.ShloMosaic.StableHlo

namespace Cert.KernelIdeal.Fold

open Cert.KernelIdeal Cert.KernelIdeal.Gen Cert.KernelIdeal.Terms Cert.KernelIdeal.Value

variable (m : (ℓ : Loc nD τ sig) → Buf (Elt Ideal) ℓ) (ρ : Dev nD → PrngReg)

/-! ## After the first stretch -/

theorem W1_arg (c : Dev nD) (b : Ref sig .tc) (h : StableHlo.after hostOps0 (W0 m ρ c) (Proc.devRef .tc b) = W0 m ρ c (Proc.devRef .tc b)) :
    W1 m ρ c (Proc.devRef .tc b) = m ((c : Thread nD τ).loc b) := h.trans rfl

theorem W1_v1 (c : Dev nD) : W1 m ρ c (Proc.devRef .tc main_v1) = srcRow (m ((c : Thread nD τ).loc main_arg1)) := Stretch0.v1 (W0 m ρ c)
theorem W1_v3 (c : Dev nD) : W1 m ρ c (Proc.devRef .tc main_v3) = dstRow (m ((c : Thread nD τ).loc main_arg1)) := Stretch0.v3 (W0 m ρ c)
theorem W1_v12 (c : Dev nD) : W1 m ρ c (Proc.devRef .tc main_v12) = recipCol (dstRow (m ((c : Thread nD τ).loc main_arg1))) := Stretch0.v12 (W0 m ρ c)
theorem W1_v24 (c : Dev nD) : W1 m ρ c (Proc.devRef .tc main_v24)
    = agg128 (m ((c : Thread nD τ).loc main_arg0)) (srcRow (m ((c : Thread nD τ).loc main_arg1))) (dstRow (m ((c : Thread nD τ).loc main_arg1))) (recipCol (dstRow (m ((c : Thread nD τ).loc main_arg1)))) := Stretch0.v24 (W0 m ρ c)
theorem W1_v25 (c : Dev nD) : W1 m ρ c (Proc.devRef .tc main_v25) = shapeCast S1x256 (m ((c : Thread nD τ).loc main_arg4)) shapeCasts_S256_S1x256 :=
  Stretch0.v25 (W0 m ρ c)

/-! ## After the first region -/

/-- The first layer's result. -/
theorem W2_v26 (c : Dev nD) : W2 m ρ c (Proc.devRef .tc main_v26) = h1 (m ((c : Thread nD τ).loc main_arg0)) (m ((c : Thread nD τ).loc main_arg1)) (m ((c : Thread nD τ).loc main_arg3)) (m ((c : Thread nD τ).loc main_arg4)) (m ((c : Thread nD τ).loc main_arg5)) := by
  refine ((W2_arr m ρ c 5).trans (Layer1.final (V1 m ρ) c)).trans ?_
  unfold Layer1.G h1
  show Cert.SageLayer.hidden (W1 m ρ c (Proc.devRef .tc main_v24)) (W1 m ρ c (Proc.devRef .tc main_arg0))
    (W1 m ρ c (Proc.devRef .tc main_arg3)) (W1 m ρ c (Proc.devRef .tc main_arg5)) (W1 m ρ c (Proc.devRef .tc main_v25)) = _
  rw [W1_v24, W1_v25, W1_arg m ρ c main_arg0 (Stretch0.arg0 _), W1_arg m ρ c main_arg3 (Stretch0.arg3 _),
    W1_arg m ρ c main_arg5 (Stretch0.arg5 _)]

/-- A buffer the first region does not touch holds after it what the first stretch left. -/
theorem W2_keep (c : Dev nD) (b : Ref sig .tc) (hb : ∀ w, Pipeline.arrRef spec0 w ≠ b) :
    W2 m ρ c (Proc.devRef .tc b) = W1 m ρ c (Proc.devRef .tc b) := W2_of_ne m ρ c b hb

theorem W2_arg (c : Dev nD) (b : Ref sig .tc) (hb : ∀ w, Pipeline.arrRef spec0 w ≠ b)
    (h : StableHlo.after hostOps0 (W0 m ρ c) (Proc.devRef .tc b) = W0 m ρ c (Proc.devRef .tc b)) :
    W2 m ρ c (Proc.devRef .tc b) = m ((c : Thread nD τ).loc b) := (W2_keep m ρ c b hb).trans (W1_arg m ρ c b h)

/-! ## After the second stretch -/

theorem W3_arg (c : Dev nD) (b : Ref sig .tc) (hb : ∀ w, Pipeline.arrRef spec0 w ≠ b)
    (h0 : StableHlo.after hostOps0 (W0 m ρ c) (Proc.devRef .tc b) = W0 m ρ c (Proc.devRef .tc b))
    (h1 : StableHlo.after hostOps1 (W2 m ρ c) (Proc.devRef .tc b) = W2 m ρ c (Proc.devRef .tc b)) :
    W3 m ρ c (Proc.devRef .tc b) = m ((c : Thread nD τ).loc b) := h1.trans (W2_arg m ρ c b hb h0)

/-- The second mean aggregate. -/
theorem W3_v38 (c : Dev nD) : W3 m ρ c (Proc.devRef .tc main_v38)
    = agg256 (h1 (m ((c : Thread nD τ).loc main_arg0)) (m ((c : Thread nD τ).loc main_arg1)) (m ((c : Thread nD τ).loc main_arg3)) (m ((c : Thread nD τ).loc main_arg4)) (m ((c : Thread nD τ).loc main_arg5))) (srcRow (m ((c : Thread nD τ).loc main_arg1))) (dstRow (m ((c : Thread nD τ).loc main_arg1))) (recipCol (dstRow (m ((c : Thread nD τ).loc main_arg1)))) := by
  refine (Stretch1.v38 (W2 m ρ c)).trans ?_
  rw [W2_v26, (W2_keep m ρ c main_v1 (by decide)).trans (W1_v1 m ρ c), (W2_keep m ρ c main_v3 (by decide)).trans (W1_v3 m ρ c),
    (W2_keep m ρ c main_v12 (by decide)).trans (W1_v12 m ρ c)]

theorem W3_v39 (c : Dev nD) : W3 m ρ c (Proc.devRef .tc main_v39) = shapeCast S1x128 (m ((c : Thread nD τ).loc main_arg7)) shapeCasts_S128_S1x128 := by
  refine (Stretch1.v39 (W2 m ρ c)).trans ?_
  rw [W2_arg m ρ c main_arg7 (by decide) (Stretch0.arg7 _)]

theorem W3_v26 (c : Dev nD) : W3 m ρ c (Proc.devRef .tc main_v26) = h1 (m ((c : Thread nD τ).loc main_arg0)) (m ((c : Thread nD τ).loc main_arg1)) (m ((c : Thread nD τ).loc main_arg3)) (m ((c : Thread nD τ).loc main_arg4)) (m ((c : Thread nD τ).loc main_arg5)) :=
  (Stretch1.v26 (W2 m ρ c)).trans (W2_v26 m ρ c)

/-! ## After the second region -/

/-- The second layer's result. -/
theorem W4_v40 (c : Dev nD) : W4 m ρ c (Proc.devRef .tc main_v40)
    = h2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine ((W4_arr m ρ c 5).trans (Layer2.final (V3 m ρ) c)).trans ?_
  unfold Layer2.G h2
  show Cert.SageLayer.linear (W3 m ρ c (Proc.devRef .tc main_v38)) (W3 m ρ c (Proc.devRef .tc main_v26))
    (W3 m ρ c (Proc.devRef .tc main_arg6)) (W3 m ρ c (Proc.devRef .tc main_arg8)) (W3 m ρ c (Proc.devRef .tc main_v39)) = _
  rw [W3_v38, W3_v26, W3_v39, W3_arg m ρ c main_arg6 (by decide) (Stretch0.arg6 _) (Stretch1.arg6 _),
    W3_arg m ρ c main_arg8 (by decide) (Stretch0.arg8 _) (Stretch1.arg8 _)]

theorem W4_arg (c : Dev nD) (b : Ref sig .tc) (hb : ∀ w, Pipeline.arrRef spec0 w ≠ b) (hb' : ∀ w, Pipeline.arrRef spec1 w ≠ b)
    (h0 : StableHlo.after hostOps0 (W0 m ρ c) (Proc.devRef .tc b) = W0 m ρ c (Proc.devRef .tc b))
    (h1 : StableHlo.after hostOps1 (W2 m ρ c) (Proc.devRef .tc b) = W2 m ρ c (Proc.devRef .tc b)) :
    W4 m ρ c (Proc.devRef .tc b) = m ((c : Thread nD τ).loc b) :=
  (W4_of_ne m ρ c b hb').trans (W3_arg m ρ c b hb h0 h1)

/-! ## After the third stretch and the third region -/

/-- The pair array. -/
theorem W5_v59 (c : Dev nD) : W5 m ρ c (Proc.devRef .tc main_v59)
    = pairOf (h2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg2)) := by
  refine (Stretch2.v59 (W4 m ρ c)).trans ?_
  rw [W4_v40, W4_arg m ρ c main_arg2 (by decide) (by decide) (Stretch0.arg2 _) (Stretch1.arg2 _)]

theorem W5_v60 (c : Dev nD) : W5 m ρ c (Proc.devRef .tc main_v60) = shapeCast S1x1 (m ((c : Thread nD τ).loc main_arg10)) shapeCasts_S1_S1x1 := by
  refine (Stretch2.v60 (W4 m ρ c)).trans ?_
  rw [W4_arg m ρ c main_arg10 (by decide) (by decide) (Stretch0.arg10 _) (Stretch1.arg10 _)]

theorem W5_arg9 (c : Dev nD) : W5 m ρ c (Proc.devRef .tc main_arg9) = (m ((c : Thread nD τ).loc main_arg9)) :=
  (Stretch2.arg9 (W4 m ρ c)).trans (W4_arg m ρ c main_arg9 (by decide) (by decide) (Stretch0.arg9 _) (Stretch1.arg9 _))

/-- THE RESULT: the last boundary's contents at the result buffer are the program's function of the arguments. -/
theorem W6_v61 (c : Dev nD) : W6 m ρ c (Proc.devRef .tc main_v61)
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W6_arr m ρ c 3).trans (PairHead.final (V5 m ρ) c)).trans ?_
  unfold PairHead.G out
  show Cert.SageBridge.head (W5 m ρ c (Proc.devRef .tc main_v59)) (W5 m ρ c (Proc.devRef .tc main_arg9))
    (W5 m ρ c (Proc.devRef .tc main_v60)) = _
  rw [W5_v59, W5_v60, W5_arg9]

end Cert.KernelIdeal.Fold

end
-- ==== Proof.RefBridge.lean ====
/-
  The array program's result is the tiled program's function of the arguments.

  Stage by stage through the array program: its index arrays (edge rows, wrapped source column, destination column) and
  its count are the tiled program's own terms; each layer is the tiled layer by the regrouping law for a positive real
  count; the pair list's column j, which the array program takes from the transposed list's row j and the tiled program
  from the list's column j, is the same vector, so the pair arrays agree; and the closing 1 / (1 + exp(-z)) is the
  logistic function.
-/
import proofs.«167262_j17119739641947_1_alg».proof.Proof.Gen.ReferenceIdeal.Read
import proofs.«167262_j17119739641947_1_alg».proof.Proof.KValue
import Idealize.ShloMosaic.Lib.Pipeline.Value
import Idealize.ShloMosaic.Lib.ValueIdx

set_option maxRecDepth 16384

noncomputable section

namespace Cert.RefBridge

open Idealize.ShloMosaic Idealize.ShloMosaic.ValueIdx Cert.LibReal
open Cert.KernelIdeal.Terms Cert.KernelIdeal.Value
open Cert.ReferenceIdeal.Read

variable (x0 : FArr Cert.KernelIdeal.S50000x128) (x1 : IArr Cert.KernelIdeal.S2x600000) (x2 : IArr Cert.KernelIdeal.S200000x2)
  (x3 : FArr Cert.KernelIdeal.S128x256) (x4 : FArr Cert.KernelIdeal.S256) (x5 : FArr Cert.KernelIdeal.S128x256)
  (x6 : FArr Cert.KernelIdeal.S256x128) (x7 : FArr Cert.KernelIdeal.S128) (x8 : FArr Cert.KernelIdeal.S256x128)
  (x9 : FArr Cert.KernelIdeal.S256x1) (x10 : FArr Cert.KernelIdeal.S1)

/-- The count is a positive, hence nonzero, real at every node. -/
theorem count_nonzero (d : IArr Cert.KernelIdeal.S600000) : AllNonzero (count d) :=
  (Cert.SageBridge.count_allPos (N := 50000) (E := 600000) Cert.KernelIdeal.scatter_S50000_S600000x1_S600000_n_0_0_1 (col d)
    Cert.KernelIdeal.Gen.bcast_S_S50000 Cert.KernelIdeal.Gen.bcast_S_S50000 Cert.KernelIdeal.Gen.bcast_S_S600000).allNonzero

/-- The first layer. -/
theorem layer1_eq : val_main_v29 (F := Ideal) x0 x1 x3 x4 x5 = h1 x0 x1 x3 x4 x5 :=
  (Cert.SageBridge.hidden_layer_eq_ref (N := 50000) (K := 128) (M := 256)
    Cert.ReferenceIdeal.dot_S50000x128_S128x256_S50000x256_1_0_0_1_n_n rfl
    (sum128 x0 (srcRow x1) (dstRow x1)) x0 (count (dstRow x1)) (count_nonzero (dstRow x1)) x3 x5 x4
    Cert.KernelIdeal.Gen.bcast_S50000x1_S50000x128_0_1 Cert.KernelIdeal.Gen.bcast_S50000_S50000x1_0
    Cert.ReferenceIdeal.Gen.bcast_S1x256_S50000x256_0_1 Cert.ReferenceIdeal.Gen.bcast_S256_S1x256_1
    (by decide) Cert.KernelIdeal.Gen.shapeCasts_S256_S1x256 Cert.KernelIdeal.Gen.bcast_S_S50000
    Cert.KernelIdeal.Gen.bcast_S_S50000x256).symm

/-- The second layer. -/
theorem layer2_eq : val_main_v54 (F := Ideal) x0 x1 x3 x4 x5 x6 x7 x8 = h2 x0 x1 x3 x4 x5 x6 x7 x8 := by
  unfold val_main_v54 val_main_v52 val_main_v53 val_main_v49 val_main_v48 val_main_v39 val_main_v36
  rw [layer1_eq]
  exact (Cert.SageBridge.layer_eq_ref (N := 50000) (K := 256) (M := 128)
    Cert.ReferenceIdeal.dot_S50000x256_S256x128_S50000x128_1_0_0_1_n_n rfl
    (sum256 (h1 x0 x1 x3 x4 x5) (srcRow x1) (dstRow x1)) (h1 x0 x1 x3 x4 x5) (count (dstRow x1)) (count_nonzero (dstRow x1)) x6 x8 x7
    Cert.KernelIdeal.Gen.bcast_S50000x1_S50000x256_0_1 Cert.KernelIdeal.Gen.bcast_S50000_S50000x1_0
    Cert.ReferenceIdeal.Gen.bcast_S1x128_S50000x128_0_1 Cert.ReferenceIdeal.Gen.bcast_S128_S1x128_1
    (by decide) Cert.KernelIdeal.Gen.shapeCasts_S128_S1x128 Cert.KernelIdeal.Gen.bcast_S_S50000).symm

/-- Row 0 of the transposed pair list is column 0 of the pair list. -/
theorem pairCol0_eq : val_main_v57 (F := Ideal) x2 = pairCol0 x2 := by
  funext i
  have h0 : (i 0).val < 200000 := (i 0).isLt
  rw [val_main_v57_apply, val_main_v56_apply, val_main_v55_apply]
  unfold pairCol0
  refine Eq.symm ((shapeCast_apply _ Cert.KernelIdeal.Gen.shapeCasts_S200000x1_S200000 i (ix2 (i 0) (0 : Fin 1)) ?_).trans ?_)
  · rw [Shape.rowMajor_val_two, Shape.rowMajor_val_one]
    show (i 0).val * 1 + 0 = (i 0).val
    omega
  · exact extractStridedSlice_apply ![0, 0] x2 Cert.KernelIdeal.Gen.slices_S200000x2_S200000x1_0_0 (ix2 (i 0) (0 : Fin 1))
      (idx_main_v55 (idx_main_v56 (idx_main_v57 i))) (fun a => match a with
        | ⟨0, _⟩ => by show (i 0).val % 200000 = 0 + (i 0).val; omega
        | ⟨1, _⟩ => by show 0 = 0 + 0; rfl)

/-- Row 1 of the transposed pair list is column 1 of the pair list. -/
theorem pairCol1_eq : val_main_v66 (F := Ideal) x2 = pairCol1 x2 := by
  funext i
  have h0 : (i 0).val < 200000 := (i 0).isLt
  rw [val_main_v66_apply, val_main_v65_apply, val_main_v55_apply]
  unfold pairCol1
  refine Eq.symm ((shapeCast_apply _ Cert.KernelIdeal.Gen.shapeCasts_S200000x1_S200000 i (ix2 (i 0) (0 : Fin 1)) ?_).trans ?_)
  · rw [Shape.rowMajor_val_two, Shape.rowMajor_val_one]
    show (i 0).val * 1 + 0 = (i 0).val
    omega
  · exact extractStridedSlice_apply ![0, 1] x2 Cert.KernelIdeal.Gen.slices_S200000x2_S200000x1_0_1 (ix2 (i 0) (0 : Fin 1))
      (idx_main_v55 (idx_main_v65 (idx_main_v66 i))) (fun a => match a with
        | ⟨0, _⟩ => by show (i 0).val % 200000 = 0 + (i 0).val; omega
        | ⟨1, _⟩ => by show 1 = 1 + 0; rfl)

/-- The pair array. -/
theorem pair_eq : val_main_v74 (F := Ideal) x0 x1 x2 x3 x4 x5 x6 x7 x8 = pairOf (h2 x0 x1 x3 x4 x5 x6 x7 x8) x2 := by
  unfold val_main_v74 val_main_v64 val_main_v73 val_main_v63 val_main_v72 val_main_v62 val_main_v71 val_main_v59 val_main_v68
    val_main_v61 val_main_v70
  rw [layer2_eq, pairCol0_eq, pairCol1_eq]
  rfl

/-- The result. -/
theorem out_eq : val_main_v84 (F := Ideal) x0 x1 x2 x3 x4 x5 x6 x7 x8 x9 x10 = out x0 x1 x2 x3 x4 x5 x6 x7 x8 x9 x10 := by
  unfold val_main_v84 val_main_v82 val_main_v80 val_main_v79 val_main_v78 val_main_v75
  rw [pair_eq]
  exact (Cert.SageBridge.head_eq_ref (N := 200000) (K := 256) (M := 1)
    Cert.ReferenceIdeal.dot_S200000x256_S256x1_S200000x1_1_0_0_1_n_n rfl
    (pairOf (h2 x0 x1 x3 x4 x5 x6 x7 x8) x2) x9 x10
    Cert.ReferenceIdeal.Gen.bcast_S1x1_S200000x1_0_1 Cert.ReferenceIdeal.Gen.bcast_S1_S1x1_1
    Cert.KernelIdeal.Gen.shapeCasts_S1_S1x1 Cert.ReferenceIdeal.Gen.bcast_S_S200000x1).symm

end Cert.RefBridge

end
-- ==== Proof.lean ====
/-
  A two-layer graph network with mean aggregation and a pairwise logistic head, tiled on the matrix unit, against the
  same network written with whole-array operations: equal over the extended reals.

  Both programs gather the source rows of the edges, add them up at the destination nodes and normalise by the in-degree
  raised to one; both apply  aggregate · W_l + b + x · W_r  twice (a rectifier after the first), pick two rows per pair,
  join them and apply the logistic function to  pair · w + b.  They differ in three places, none of which needs a
  hypothesis on the data:
    * the tiled program multiplies the neighbour sums by 1 / count where the array program divides by count; the count is
      a sum of ones raised to one, a positive real, and a / c = a (1 / c) for every extended real a;
    * the tiled program adds the two matrix products first and the bias last, the array program the bias in between:
      addition of extended reals is commutative and associative;
    * the array program spells the logistic function as 1 / (1 + exp(-z)), which is its definition; narrowing the
      matrix unit's inputs to a shorter float format is the identity on the extended reals, and a row-blocked matrix
      product read at one entry is the same finite sum as the whole product's entry.
  The pair list's column j is taken as a slice by one program and as a row of the transposed list by the other: the same
  vector of indices. Gathers, accumulating scatters and the join are the same operations in both programs and are
  never opened: they are applied to arrays shown equal.

  The tiled program's run is read through its three regions (each leaves ONE whole-array function of the arrays it
  found: the row blocks tile the result) and the three host stretches between them; the array program's run is its
  list of operations composed.
-/
import proofs.«167262_j17119739641947_1_alg».proof.Defs
import proofs.«167262_j17119739641947_1_alg».proof.Proof.Gen.Kernel
import proofs.«167262_j17119739641947_1_alg».proof.Proof.Gen.Kernel.Skeleton
import proofs.«167262_j17119739641947_1_alg».proof.Proof.Gen.Kernel.Launch
import proofs.«167262_j17119739641947_1_alg».proof.Proof.Gen.Kernel.Points
import proofs.«167262_j17119739641947_1_alg».proof.Proof.Gen.Kernel.Frame
import proofs.«167262_j17119739641947_1_alg».proof.Proof.Gen.KernelIdeal
import proofs.«167262_j17119739641947_1_alg».proof.Proof.Gen.KernelIdeal.Skeleton
import proofs.«167262_j17119739641947_1_alg».proof.Proof.Gen.KernelIdeal.Launch
import proofs.«167262_j17119739641947_1_alg».proof.Proof.Gen.KernelIdeal.Points
import proofs.«167262_j17119739641947_1_alg».proof.Proof.Gen.KernelIdeal.Frame
import proofs.«167262_j17119739641947_1_alg».proof.Proof.Gen.ReferenceIdeal
import proofs.«167262_j17119739641947_1_alg».proof.Proof.Gen.ReferenceIdeal.Run
import proofs.«167262_j17119739641947_1_alg».proof.Proof.Gen.ReferenceIdeal.Read
import proofs.«167262_j17119739641947_1_alg».proof.Proof.Gen.Pre_finite_inputs
import proofs.«167262_j17119739641947_1_alg».proof.Proof.KRun
import proofs.«167262_j17119739641947_1_alg».proof.Proof.KFold
import proofs.«167262_j17119739641947_1_alg».proof.Proof.RefBridge
import Idealize.ShloMosaic.Adequacy
import Idealize.ShloMosaic.Init

noncomputable section

namespace Cert.Proof

open Idealize.ShloMosaic Idealize.SL.Sem

/-- The tiled program runs and keeps its arguments, at the word level. -/
theorem frame_kernel : Cert.frame_Kernel := fun m ρ _ => Cert.Kernel.Gen.frame m ρ

/-- The tiled program runs and keeps its arguments, over the extended reals. -/
theorem frame_kernelIdeal : Cert.frame_KernelIdeal := fun m ρ _ => Cert.KernelIdeal.Gen.frame m ρ

/-- The array program runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result array: the tiled program's
    function of the arguments. -/
theorem algebraic : Cert.algebraic_KernelIdeal_ReferenceIdeal := by
  intro m ρ m' ρ' _ hagree
  refine ⟨fun c => Cert.KernelIdeal.Value.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
    (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Fold.W6_v61 m ρ c), (h c).2⟩)
      (Cert.KernelIdeal.Gen.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v84_eq]
    obtain ⟨e0, e1, e2, e3, e4, e5, e6, e7, e8, e9, e10⟩ := hagree c
    rw [e0, e1, e2, e3, e4, e5, e6, e7, e8, e9, e10]
    exact Cert.RefBridge.out_eq _ _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
